-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S512x1 : Shape := ⟨2, ![512, 1]⟩
abbrev S512 : Shape := ⟨1, ![512]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 7
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x1, .f32⟩
  | .hbm, ⟨4, _⟩ => ⟨S1x4096, .f32⟩
  | .hbm, ⟨5, _⟩ => ⟨S1x4096, .f32⟩
  | .hbm, ⟨6, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S1x4096, .f32⟩
  | .local _ .vmem, ⟨5, _⟩ => ⟨S1024x1024, .f32⟩
  | .local _ .vmem, ⟨6, _⟩ => ⟨S1024x1024, .f32⟩
  | .local _ .vmem, ⟨7, _⟩ => ⟨S1024x1, .f32⟩
  | .local _ .vmem, ⟨8, _⟩ => ⟨S1024x1, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg0 : BitVec 32 := BitVec.ofNat 32 (i 0).val
  let c0_i32_5 : BitVec 32 := 0#32
  let v9 : BitVec 1 := Scalar.cmpi .ne arg0 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reduces_S512x4096_S4096 : S512x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  bitsLt_bf16_f32 : FTy.bits .bf16 < FTy.bits .f32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .f32 = 32 ∨ (Rect.block (s := S4096x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x4096.size a
  hwx1_5 : ∀ i : grid1.Coords, EltTy.bits .f32 = 32 ∨ (Rect.block (s := S4096x4096) S1024x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  reducesTo_S4096x4096_S4096_d0 : S4096x4096.ReducesTo [0] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.R0Runs.lean ====
/-
  The first kernel (row sums and column sums of A, eight row blocks of 512) on its grid: what is shared by the
  two ways a grid point runs its body. The first point stores the block's column sums into the column buffer;
  every later point adds its block's column sums to what the buffer holds. The row-sum buffer is stored whole
  at every point.
-/
import proofs.«132442_j58583353917526_1_alg».proof.Proof.Gen.Kernel.Launch
import proofs.«132442_j58583353917526_1_alg».proof.Proof.Gen.Kernel.Skeleton
import proofs.«132442_j58583353917526_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the kernel is entered from, per core
variable (V : (c : Dev nD) → (b : Ref sig .tc) → Buf (Elt F) ((c : Thread nD τ).loc b))

/-! ## The blocks of the first kernel's windows -/

/-- Block `t` of window `w`'s array, as the kernel finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The A window's buffer holds block `t` of A when the body runs at point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Which points are first -/

/-- "This is the first row block": the body's test `i == 0`. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is a later row block": the body's test `i != 0`. -/
abbrev cond0_1 (i : grid0.Coords) : Prop := k0_cond2 i = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)

/-! ## Every window is stored into at every point -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- One of the two tests holds at every coordinate, so the column buffer is stored into everywhere. -/
theorem live0_2 : ∀ i : grid0.Coords, cfg0.idle 2 i = false := by decide +kernel

/-! ## The buffers a point works on -/

abbrev VO0_1 : View sig .tc .vmem S512x1 .f32 := (Memref.whole cc0_stg1_0 : Memref sig .tc .vmem S512x1 .f32).view
abbrev VO0_2 : View sig .tc .vmem S1x4096 .f32 := (Memref.whole cc0_stg2_0 : Memref sig .tc .vmem S1x4096 .f32).view
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)

end Cert.Kernel.Frame

end
-- ==== Proof.K.R0RunA.lean ====
/-
  The first kernel's body at the first row block: the row sums of the block are stored into the row buffer and
  the column sums of the block into the column buffer, whatever either held. What each buffer ends with is
  recorded as the list of pieces the body's stores wrote, found by running the body.
-/
import proofs.«132442_j58583353917526_1_alg».proof.Proof.K.R0Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, on whole buffers: the A block at `x0`, both result buffers at anything. It
    leaves the A block as it was and each result buffer with its stores written. -/
noncomputable def kernelRun0_A (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) :
    Σ' (L1 : List (View.Piece (Elt F) S512x1 .f32)), { L2 : List (View.Piece (Elt F) S1x4096 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__rowcol_kernel i arg1 harg1 arg2 harg2 arg3 harg3) K } := by
  refine ⟨?_, ?_, fun E K => ?run⟩
  case run =>
    simp only [cc0__rowcol_kernel_eq_skeleton]; unfold cc0__rowcol_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [H1]; · iexists _; iexact H1
    iexists _; iexact H2

end Cert.Kernel.Frame

end
-- ==== Proof.K.R0RunB.lean ====
/-
  The first kernel's body at a later row block: the row sums of the block are stored into the row buffer, and the
  column buffer, which holds the column sums of the blocks before, is read and stored back with this block's
  column sums added.
-/
import proofs.«132442_j58583353917526_1_alg».proof.Proof.K.R0RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point, on whole buffers: the A block at `x0`, the row buffer at anything, the column
    buffer at `xo2`. It leaves the A block as it was and each result buffer with its stores written. -/
noncomputable def kernelRun0_B (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) :
    Σ' (L1 : List (View.Piece (Elt F) S512x1 .f32)), { L2 : List (View.Piece (Elt F) S1x4096 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__rowcol_kernel i arg1 harg1 arg2 harg2 arg3 harg3) K } := by
  refine ⟨?_, ?_, fun E K => ?run⟩
  case run =>
    simp only [cc0__rowcol_kernel_eq_skeleton]; unfold cc0__rowcol_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc0 | exact hc1)
    sl_step
    iapply Hk
    isplitl [H0]
    · iexists _; isplitr; · ipureintro; exact harg1.read_unread _
      iexact H0
    isplitl [H1]; · iexists _; iexact H1
    iexists _; iexact H2

end Cert.Kernel.Frame

end
-- ==== Proof.K.R0Frame.lean ====
/-
  The first kernel over its eight row blocks. After point n the row buffer holds the row sums of block n, and the
  column buffer holds the column sums of blocks 0..n: at the first point the block's column sums, afterwards what
  the point before left plus this block's column sums. The column buffer is written back to its array only after
  the last point, so between points it keeps what the body left in it.
-/
import proofs.«132442_j58583353917526_1_alg».proof.Proof.K.R0RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave -/

/-- At the first point the stores into the row buffer cover it. -/
theorem cover0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) (y : S512x1.Idx) :
    ∃ pc ∈ (kernelRun0_A c i arg1 harg1 arg2 harg2 arg3 harg3 hc0 hc1 x0).1, y ∈ pc.1.set :=
  View.cover_of_tiledL (kernelRun0_A c i arg1 harg1 arg2 harg2 arg3 harg3 hc0 hc1 x0).1 S512x1.size (by sl_kernel_rfl) y

/-- At the first point the stores into the column buffer cover it. -/
theorem cover0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) (y : S1x4096.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x4096.size (by sl_kernel_rfl) y

/-- The row buffer after the first point. -/
def out0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) : Vec F S512x1 .f32 :=
  VO0_1.read (Elt F) (VO0_1.writes (Elt F) VO0_1.junk (kernelRun0_A c i arg1 harg1 arg2 harg2 arg3 harg3 hc0 hc1 x0).1)

/-- The column buffer after the first point. -/
def out0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) : Vec F S1x4096 .f32 :=
  VO0_2.read (Elt F) (VO0_2.writes (Elt F) VO0_2.junk (kernelRun0_A c i arg1 harg1 arg2 harg2 arg3 harg3 hc0 hc1 x0).2.1)

/-- At a later point the stores into the row buffer cover it. -/
theorem cover0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) (y : S512x1.Idx) :
    ∃ pc ∈ (kernelRun0_B c i arg1 harg1 arg2 harg2 arg3 harg3 hc0 hc1 x0 xo2).1, y ∈ pc.1.set :=
  View.cover_of_tiledL (kernelRun0_B c i arg1 harg1 arg2 harg2 arg3 harg3 hc0 hc1 x0 xo2).1 S512x1.size (by sl_kernel_rfl) y

/-- At a later point the stores into the column buffer cover it. -/
theorem cover0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) (y : S1x4096.Idx) :
    ∃ pc ∈ (kernelRun0_B c i arg1 harg1 arg2 harg2 arg3 harg3 hc0 hc1 x0 xo2).2.1, y ∈ pc.1.set :=
  View.cover_of_tiledL (kernelRun0_B c i arg1 harg1 arg2 harg2 arg3 harg3 hc0 hc1 x0 xo2).2.1 S1x4096.size (by sl_kernel_rfl) y

/-- The row buffer after a later point. -/
def out0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) : Vec F S512x1 .f32 :=
  VO0_1.read (Elt F) (VO0_1.writes (Elt F) VO0_1.junk (kernelRun0_B c i arg1 harg1 arg2 harg2 arg3 harg3 hc0 hc1 x0 xo2).1)

/-- The column buffer after a later point, from what it held before (`xo2`). -/
def out0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) : Vec F S1x4096 .f32 :=
  VO0_2.read (Elt F) (VO0_2.writes (Elt F) VO0_2.junk (kernelRun0_B c i arg1 harg1 arg2 harg2 arg3 harg3 hc0 hc1 x0 xo2).2.1)

/-! ## The two result buffers after each point -/

/-- The row buffer and the column buffer after the body at point `n`: the first point's case at a point that is
    a multiple of 8 (only point 0), else the later points' case over what the column buffer held after point
    `n - 1`. -/
def outsAt0 (c : Dev nD) : (n : ℕ) → n < cfg0.N → Vec F S512x1 .f32 × Vec F S1x4096 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => ((hcond0_1 ⟨0, hn⟩).mp h) (Nat.zero_mod _)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => ((hcond0_1 ⟨0, hn⟩).mp h) (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => ((hcond0_1 ⟨n + 1, hn⟩).mp h) h0) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => ((hcond0_1 ⟨n + 1, hn⟩).mp h) h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h0) (iblk0 V c 0 ⟨n + 1, hn⟩) (outsAt0 c n (Nat.lt_of_succ_lt hn)).2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h0) (iblk0 V c 0 ⟨n + 1, hn⟩) (outsAt0 c n (Nat.lt_of_succ_lt hn)).2)

/-- At the first point. -/
theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (fun h => ((hcond0_1 t).mp h) h0) (iblk0 V c 0 t), out0_A_2 c (grid0.coords t) (ms0_0 t) (hs0_0 t) (ms0_1 t) (hs0_1 t) (ms0_2 t) (hs0_2 t) ((hcond0_0 t).mpr h0) (fun h => ((hcond0_1 t).mp h) h0) (iblk0 V c 0 t)) := by
  obtain ⟨n, hn⟩ := t
  cases n with
  | zero => exact rfl
  | succ n => exact (dif_pos h0).trans rfl

/-- At a later point, over what the point before left in the column buffer. -/
theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) ((hcond0_1 t).mpr h0) (iblk0 V c 0 t) (outsAt0 V c (t.val - 1) (Nat.lt_of_le_of_lt (Nat.sub_le _ _) t.isLt)).2, out0_B_2 c (grid0.coords t) (ms0_0 t) (hs0_0 t) (ms0_1 t) (hs0_1 t) (ms0_2 t) (hs0_2 t) (fun h => h0 ((hcond0_0 t).mp h)) ((hcond0_1 t).mpr h0) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data of the first kernel's pipeline -/

/-- The arrays as the kernel finds them; after the body at point `t` the A window's buffer at its block and the
    two result buffers at `outsAt0`; nothing else kept between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The A window's buffer holds block `t` of A at point `t`. -/
theorem before0_0 (c : Dev nD) (t : Fin cfg0.N) (d) : (dat0 V c).before 0 t d = iblk0 V c 0 t :=
  before0_0_of V (dat0 V c) (A_eq0 V c 0) (after0_0 V c) t d

/-- At a later point the column buffer holds what the body left in it at the point before: it has not been written
    back in between (it is written back after the last point only) and every point stores into it. -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    live0_2 (fun _ _ => rfl)]
  dsimp only [dat0]

/-! ## The body at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point: the A window's buffer holds its block; at the first point both result buffers are
    stored whole whatever they held; at a later point the column buffer holds what the point before left, and
    the body adds to it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 8 := lt_of_lt_of_eq t.isLt (show cfg0.N = 8 from N_0)
  by_cases h0 : t.val % 8 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) ((hcond0_0 t).mpr h0) (fun h => ((hcond0_1 t).mp h) h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _)
    · unfold owns; iexists _; isplitr
      swap; · iexact H2
      ipureintro; exact View.read_writes_of_cover _ _ _ _ _ (cover0_A_2 c _ _ _ _ _ _ _ _ _ _)
  · rw [outsAt0_B V c t h0]
    simp only [before0_2_B V c t h0]
    unfold out0_B_1 out0_B_2; (try dsimp only)
    iintro ⟨HΦ, Ho, ⟨%d0, H0⟩, ⟨%d1, H1⟩, ⟨%d2, H2⟩⟩
    iapply ((kernelRun0_B c (grid0.coords t) (ms0_0 t) (hs0_0 t) (ms0_1 t) (hs0_1 t) (ms0_2 t) (hs0_2 t) (fun h => h0 ((hcond0_0 t).mp h)) ((hcond0_1 t).mpr h0) (iblk0 V c 0 t) _).2.2 Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _)
    · unfold owns; iexists _; isplitr
      swap; · iexact H2
      ipureintro; exact View.read_writes_of_cover _ _ _ _ _ (cover0_B_2 c _ _ _ _ _ _ _ _ _ _ _)

/-- The body obligation of the first kernel's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.R1Runs.lean ====
/-
  The second kernel on its grid of 4 x 4 x 4 points (row block, column block, inner block k): what is shared by
  the three ways a grid point runs its body. With r the row sums and s the column sums of A, the kernel forms
  P = (r + s - 2 A) * A entrywise on a 1024 x 1024 block, rounds P and the W block to bf16 and adds their matrix
  product to an accumulator it keeps between points. At k = 0 the accumulator is first filled with zeros; at
  k = 1, 2 it only accumulates; at k = 3, after accumulating, it stores accumulator + bias row as the output
  block. The output block is stored, and written back, at the points with k = 3 only.
-/
import proofs.«132442_j58583353917526_1_alg».proof.Proof.K.R0Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the kernel is entered from, per core
variable (V : (c : Dev nD) → (b : Ref sig .tc) → Buf (Elt F) ((c : Thread nD τ).loc b))

/-! ## The blocks of the second kernel's windows -/

/-- Block `t` of window `w`'s array, as the kernel finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of window 0 (the A block) holds block `t` of its array when the body runs at point `t`, whether
    the block was moved in at that point or at an earlier one with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The buffer of window 1 (the row-sum column) holds block `t` of its array when the body runs at point `t`, whether
    the block was moved in at that point or at an earlier one with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The buffer of window 2 (the column-sum row) holds block `t` of its array when the body runs at point `t`, whether
    the block was moved in at that point or at an earlier one with the same block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The buffer of window 3 (the W block) holds block `t` of its array when the body runs at point `t`, whether
    the block was moved in at that point or at an earlier one with the same block index. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The buffer of window 4 (the bias row) holds block `t` of its array when the body runs at point `t`, whether
    the block was moved in at that point or at an earlier one with the same block index. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Which points are first and last in the inner index -/

/-- "This is the first inner block": the body's test `k == 0`. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last inner block": the body's test `k == 3`. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are stored into -/

-- the five inputs are in use at every point
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a first inner block the output block is not stored into, -/
theorem idleAt1_5_A : ∀ t : Fin cfg1.N, cond1_0 (grid1.coords t) → ¬cond1_1 (grid1.coords t) → cfg1.idle 5 (grid1.coords t) = true := by decide +kernel
/-- nor written back. -/
theorem noFlush1_5_A : ∀ t : Fin cfg1.N, cond1_0 (grid1.coords t) → ¬cond1_1 (grid1.coords t) → (cfg1.win 5).flush t = false := by decide +kernel
/-- At a middle inner block the output block is not stored into, -/
theorem idleAt1_5_B : ∀ t : Fin cfg1.N, ¬cond1_0 (grid1.coords t) → ¬cond1_1 (grid1.coords t) → cfg1.idle 5 (grid1.coords t) = true := by decide +kernel
/-- nor written back. -/
theorem noFlush1_5_B : ∀ t : Fin cfg1.N, ¬cond1_0 (grid1.coords t) → ¬cond1_1 (grid1.coords t) → (cfg1.win 5).flush t = false := by decide +kernel
/-- At a last inner block the output block is stored. -/
theorem liveAt1_5_C : ∀ t : Fin cfg1.N, ¬cond1_0 (grid1.coords t) → cond1_1 (grid1.coords t) → cfg1.idle 5 (grid1.coords t) = false := by decide +kernel

/-! ## The buffers a point works on -/

/-- One buffer of the output window, through which its contents are stated. -/
abbrev VO1_5 : View sig .tc .vmem S1024x1024 .f32 := (Memref.whole cc1_stg5_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole buffer of the kernel's own, kept from one point to the next. -/
abbrev scM1_0 : Memref sig .tc .vmem S1024x1024 .f32 := Memref.whole cc1_scratch0
/-- The accumulator as a view: what it holds is stated through it. -/
abbrev VS1_0 : View sig .tc .vmem S1024x1024 .f32 := scM1_0.view

/-! ## What the kernel holds besides its windows -/

/-- The five buffers the first kernel worked in, each whole at some contents: the second kernel never touches them. -/
def otherScoped (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f))

/-- Seven conjuncts regrouped: the first five together, then the sixth, then the seventh. -/
theorem regroup_five (B0 B1 B2 B3 B4 S G : sProp 𝕄) :
    iprop((B0 ∗ B1 ∗ B2 ∗ B3 ∗ B4 ∗ S) ∗ G) = iprop(((B0 ∗ B1 ∗ B2 ∗ B3 ∗ B4) ∗ S) ∗ G) :=
  BI.Entails.antisymm
    (show iprop((B0 ∗ B1 ∗ B2 ∗ B3 ∗ B4 ∗ S) ∗ G) ⊢ iprop(((B0 ∗ B1 ∗ B2 ∗ B3 ∗ B4) ∗ S) ∗ G) from by
      iintro ⟨⟨H0, H1, H2, H3, H4, HS⟩, Hg⟩
      isplitr [Hg]
      · isplitr [HS]
        · isplitl [H0]; · iexact H0
          isplitl [H1]; · iexact H1
          isplitl [H2]; · iexact H2
          isplitl [H3]; · iexact H3
          iexact H4
        · iexact HS
      · iexact Hg)
    (show iprop(((B0 ∗ B1 ∗ B2 ∗ B3 ∗ B4) ∗ S) ∗ G) ⊢ iprop((B0 ∗ B1 ∗ B2 ∗ B3 ∗ B4 ∗ S) ∗ G) from by
      iintro ⟨⟨⟨H0, H1, H2, H3, H4⟩, HS⟩, Hg⟩
      isplitr [Hg]
      · isplitl [H0]; · iexact H0
        isplitl [H1]; · iexact H1
        isplitl [H2]; · iexact H2
        isplitl [H3]; · iexact H3
        isplitl [H4]; · iexact H4
        iexact HS
      · iexact Hg)

/-- What the second kernel is entered with besides its windows: those five buffers, the accumulator at some
    contents, and the generator register at some state. -/
theorem PhiA1_eq (c : Dev nD) :
    (Pipeline.ΦA spec1 c : sProp 𝕄)
      = iprop(iprop(otherScoped (F := F) c ∗ (∃ d, owns (c : Thread nD τ) scM1_0 fullShare d)) ∗ (∃ r, prngReg c r)) := by
  unfold Pipeline.ΦA; rw [scopedRest1_eq]
  refine (regroup_five _ _ _ _ _ _ _).trans ?_
  unfold otherScoped; simp only [scM1_0, owns_whole]; rfl

end Cert.Kernel.Frame

end
-- ==== Proof.K.R1RunA.lean ====
/-
  The second kernel's body at a first inner block (k = 0): the accumulator, whatever it held, is filled with
  zeros and then the bf16 product of P = (r + s - 2 A) * A and the W block is added to it; the output buffer is
  not touched. What the accumulator ends with is recorded as the list of pieces the body's stores wrote, found by
  running the body.
-/
import proofs.«132442_j58583353917526_1_alg».proof.Proof.K.R1Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first inner block, on whole buffers: the five inputs at `x0 … x4`, the output buffer at `xi5`,
    the accumulator at anything. It leaves the inputs and the output buffer as they were and the accumulator with
    its stores written. -/
noncomputable def kernelRun1_A (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) :
    Σ' (L5 : List (View.Piece (Elt F) S1024x1024 .f32)), { LS0 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨[], ?_, fun xi5 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Frame

end
-- ==== Proof.K.R1RunB.lean ====
/-
  The second kernel's body at a middle inner block (k = 1, 2): the bf16 product of P = (r + s - 2 A) * A and the
  W block is added to what the accumulator held from the point before; the output buffer is not touched. What the
  accumulator ends with is recorded as the list of pieces the body's stores wrote, found by running the body.
-/
import proofs.«132442_j58583353917526_1_alg».proof.Proof.K.R1RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle inner block, on whole buffers: the five inputs at `x0 … x4`, the output buffer at `xi5`,
    the accumulator at `xs0`. It leaves the inputs and the output buffer as they were and the accumulator with its
    store written. -/
noncomputable def kernelRun1_B (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) :
    Σ' (L5 : List (View.Piece (Elt F) S1024x1024 .f32)), { LS0 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨[], ?_, fun xi5 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Frame

end
-- ==== Proof.K.R1RunC.lean ====
/-
  The second kernel's body at a last inner block (k = 3): the bf16 product of P = (r + s - 2 A) * A and the W
  block is added to what the accumulator held from the point before, and accumulator + bias row is stored as the
  output block, whatever the output buffer held. What the accumulator and the output buffer end with is recorded
  as the lists of pieces the body's stores wrote, found by running the body.
-/
import proofs.«132442_j58583353917526_1_alg».proof.Proof.K.R1RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last inner block, on whole buffers: the five inputs at `x0 … x4`, the output buffer at anything,
    the accumulator at `xs0`. It leaves the inputs as they were and the accumulator and the output buffer each
    with its store written. -/
noncomputable def kernelRun1_C (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Frame

end
-- ==== Proof.K.R1Frame.lean ====
/-
  The second kernel over its whole grid. Per case (first, middle, last inner block) what the accumulator and the
  output buffer end with, read back from the pieces the body's stores wrote, and that those pieces cover the
  buffer; point by point what the two hold (`outsAt1`: the accumulator carried from each point to the next, the
  output block stored at the last inner block of each (row block, column block) pair); the proof data of the
  pipeline that runs the kernel; and the body obligation at every point.
-/
import proofs.«132442_j58583353917526_1_alg».proof.Proof.K.R1RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the kernel is entered from, per core
variable (V : (c : Dev nD) → (b : Ref sig .tc) → Buf (Elt F) ((c : Thread nD τ).loc b))

/-! ## What each case leaves -/

/-- A first inner block stores nothing into the output buffer: no pieces. A placeholder that nothing reads, since
    at these points the output block is neither written back nor read at the next point. -/
def out1_A_5 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) : Vec F S1024x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- At a first inner block the accumulator's pieces (the zero fill, then the sum) cover it. -/
theorem scover1_A_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (y : S1024x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x1024.size (by sl_kernel_rfl) y

/-- What a first inner block leaves in the accumulator: its pieces read back. -/
def sout1_A_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- A middle inner block stores nothing into the output buffer: no pieces, a placeholder as at a first one. -/
def out1_B_5 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) : Vec F S1024x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- At a middle inner block the accumulator's one piece (the sum) covers it. -/
theorem scover1_B_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x1024.size (by sl_kernel_rfl) y

/-- What a middle inner block leaves in the accumulator: its piece read back. -/
def sout1_B_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- At a last inner block the output buffer's one piece (accumulator + bias row) covers it. -/
theorem cover1_C_5 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x1024.size (by sl_kernel_rfl) y

/-- What a last inner block leaves in the output buffer: its piece read back. -/
def out1_C_5 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- At a last inner block the accumulator's one piece (the sum) covers it. -/
theorem scover1_C_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x1024.size (by sl_kernel_rfl) y

/-- What a last inner block leaves in the accumulator: its piece read back. -/
def sout1_C_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output buffer and the accumulator hold after each point -/

/-- THE ACCUMULATION. What the output buffer and the accumulator hold after the body at position `n` (a pair: the
    output buffer, then the accumulator): the case k = n mod 4 selects, run at the point's buffers and input
    blocks, the accumulator taken at what position `n - 1` left in it. -/
def outsAt1 (c : Dev nD) : (n : ℕ) → n < cfg1.N → Vec F S1024x1024 .f32 × Vec F S1024x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by have hN : n + 1 < 64 := lt_of_lt_of_eq hn (show cfg1.N = 64 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a first inner block. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a middle inner block: over what the point before left in the accumulator. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last inner block: over what the point before left in the accumulator. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the kernel holds besides its windows before position `n`: before the first point what it is entered with
    (the accumulator at anything); afterwards the accumulator at what the point before left in it, the first
    kernel's five buffers and the generator register as they are. -/
def PhiS1 (c : Dev nD) : (n : ℕ) → n ≤ cfg1.N → sProp 𝕄
  | 0, _ => Pipeline.ΦA spec1 c
  | n + 1, hn => iprop(iprop(otherScoped (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(otherScoped (F := F) c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(otherScoped (F := F) c ∗ owns (c : Thread nD τ) scM1_0 fullShare ((outsAt1 V c (n - 1) (by omega)).2)) ∗ (∃ r, prngReg c r)) := by
  cases n with
  | zero => exact absurd rfl hz
  | succ n => rfl

/-! ## The second kernel's proof data -/

/-- The proof data of the second kernel on core `c`: the arrays as the kernel finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the contents the kernel is entered from. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's buffer holds its block at every point, moved in there or earlier. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point. The inputs' buffers hold their blocks; k = t mod 4 says which case the point is in;
    the invariant hands the body the accumulator at what the point before left (at anything at the first point)
    and takes it back at this point's contents, the first kernel's buffers and the generator register passing
    through; the output buffer comes back stored at a last inner block and untouched elsewhere; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · -- a first inner block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HB, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HB HS0 Hg]
        · isplitr [Hg]
          · isplitl [HB]; · iexact HB
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HB, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HB HS0 Hg]
        · isplitr [Hg]
          · isplitl [HB]; · iexact HB
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · -- a last inner block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HB, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HB HS0 Hg]
        · isplitr [Hg]
          · isplitl [HB]; · iexact HB
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · -- a middle inner block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HB, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HB HS0 Hg]
        · isplitr [Hg]
          · isplitl [HB]; · iexact HB
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the kernel was entered with: the accumulator's
    named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HB, HS0⟩, Hg⟩
  isplitl [HB HS0]
  · isplitl [HB]; · iexact HB
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Frame

end
-- ==== Proof.K.Run.lean ====
/-
  The whole program on a core: the first kernel's region, the reshape of b into a row, the second kernel's region.
  The contents of the core's buffers are followed from the launch through the three items: after the first region
  its two result arrays hold what its write-backs leave and everything else is as before; the reshape writes its
  own result; after the second region the output array holds what its write-backs leave. No item writes an
  argument array, so the arguments end as launched; and the output array ends at the second region's final
  contents, which the value modules read.
-/
import proofs.«132442_j58583353917526_1_alg».proof.Proof.K.R0Frame
import proofs.«132442_j58583353917526_1_alg».proof.Proof.K.R1Frame
import proofs.«132442_j58583353917526_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch, which is also where the first region is entered. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first region: its arrays at what the pipeline leaves, the rest as before. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of b, where the second region is entered. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The reshape writes only its own result. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := W3_of m ρ c main_arg1 (by decide)
    _ = W0 m ρ c (Proc.devRef .tc main_arg1) := W2_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W0 m ρ c (Proc.devRef .tc main_arg2) := W2_of_ne m ρ c main_arg2 (by decide)
    _ = m ((c : Thread nD τ).loc main_arg2) := rfl

/-! ## The proof data of the two pipelines and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- The generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    refine (hout1 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting;
    the output array ends at what the second region's write-backs leave and each argument array as launched. -/
theorem run_main : θ_run defs (onTc (τ := τ) (main (F := F))) ⟨m, fun _ => 0, ρ⟩ (fun r => ∀ c : Dev nD,
      r.2.mem ((c.tc : Thread nD τ).loc main_v2) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v2 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Kernel.Frame

end
-- ==== Proof.KI.R0Runs.lean ====
/-
  The first kernel (row sums and column sums of A, eight row blocks of 512) on its grid: what is shared by the
  two ways a grid point runs its body. The first point stores the block's column sums into the column buffer;
  every later point adds its block's column sums to what the buffer holds. The row-sum buffer is stored whole
  at every point.
-/
import proofs.«132442_j58583353917526_1_alg».proof.Proof.Gen.KernelIdeal.Launch
import proofs.«132442_j58583353917526_1_alg».proof.Proof.Gen.KernelIdeal.Skeleton
import proofs.«132442_j58583353917526_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the kernel is entered from, per core
variable (V : (c : Dev nD) → (b : Ref sig .tc) → Buf (Elt F) ((c : Thread nD τ).loc b))

/-! ## The blocks of the first kernel's windows -/

/-- Block `t` of window `w`'s array, as the kernel finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The A window's buffer holds block `t` of A when the body runs at point `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Which points are first -/

/-- "This is the first row block": the body's test `i == 0`. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is a later row block": the body's test `i != 0`. -/
abbrev cond0_1 (i : grid0.Coords) : Prop := k0_cond2 i = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)

/-! ## Every window is stored into at every point -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- One of the two tests holds at every coordinate, so the column buffer is stored into everywhere. -/
theorem live0_2 : ∀ i : grid0.Coords, cfg0.idle 2 i = false := by decide +kernel

/-! ## The buffers a point works on -/

abbrev VO0_1 : View sig .tc .vmem S512x1 .f32 := (Memref.whole cc0_stg1_0 : Memref sig .tc .vmem S512x1 .f32).view
abbrev VO0_2 : View sig .tc .vmem S1x4096 .f32 := (Memref.whole cc0_stg2_0 : Memref sig .tc .vmem S1x4096 .f32).view
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)

end Cert.KernelIdeal.Frame

end
-- ==== Proof.KI.R0RunA.lean ====
/-
  The first kernel's body at the first row block: the row sums of the block are stored into the row buffer and
  the column sums of the block into the column buffer, whatever either held. What each buffer ends with is
  recorded as the list of pieces the body's stores wrote, found by running the body.
-/
import proofs.«132442_j58583353917526_1_alg».proof.Proof.KI.R0Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, on whole buffers: the A block at `x0`, both result buffers at anything. It
    leaves the A block as it was and each result buffer with its stores written. -/
noncomputable def kernelRun0_A (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) :
    Σ' (L1 : List (View.Piece (Elt F) S512x1 .f32)), { L2 : List (View.Piece (Elt F) S1x4096 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__rowcol_kernel i arg1 harg1 arg2 harg2 arg3 harg3) K } := by
  refine ⟨?_, ?_, fun E K => ?run⟩
  case run =>
    simp only [cc0__rowcol_kernel_eq_skeleton]; unfold cc0__rowcol_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [H1]; · iexists _; iexact H1
    iexists _; iexact H2

end Cert.KernelIdeal.Frame

end
-- ==== Proof.KI.R0RunB.lean ====
/-
  The first kernel's body at a later row block: the row sums of the block are stored into the row buffer, and the
  column buffer, which holds the column sums of the blocks before, is read and stored back with this block's
  column sums added.
-/
import proofs.«132442_j58583353917526_1_alg».proof.Proof.KI.R0RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point, on whole buffers: the A block at `x0`, the row buffer at anything, the column
    buffer at `xo2`. It leaves the A block as it was and each result buffer with its stores written. -/
noncomputable def kernelRun0_B (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) :
    Σ' (L1 : List (View.Piece (Elt F) S512x1 .f32)), { L2 : List (View.Piece (Elt F) S1x4096 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__rowcol_kernel i arg1 harg1 arg2 harg2 arg3 harg3) K } := by
  refine ⟨?_, ?_, fun E K => ?run⟩
  case run =>
    simp only [cc0__rowcol_kernel_eq_skeleton]; unfold cc0__rowcol_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc0 | exact hc1)
    sl_step
    iapply Hk
    isplitl [H0]
    · iexists _; isplitr; · ipureintro; exact harg1.read_unread _
      iexact H0
    isplitl [H1]; · iexists _; iexact H1
    iexists _; iexact H2

end Cert.KernelIdeal.Frame

end
-- ==== Proof.KI.R0Frame.lean ====
/-
  The first kernel over its eight row blocks. After point n the row buffer holds the row sums of block n, and the
  column buffer holds the column sums of blocks 0..n: at the first point the block's column sums, afterwards what
  the point before left plus this block's column sums. The column buffer is written back to its array only after
  the last point, so between points it keeps what the body left in it.
-/
import proofs.«132442_j58583353917526_1_alg».proof.Proof.KI.R0RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave -/

/-- At the first point the stores into the row buffer cover it. -/
theorem cover0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) (y : S512x1.Idx) :
    ∃ pc ∈ (kernelRun0_A c i arg1 harg1 arg2 harg2 arg3 harg3 hc0 hc1 x0).1, y ∈ pc.1.set :=
  View.cover_of_tiledL (kernelRun0_A c i arg1 harg1 arg2 harg2 arg3 harg3 hc0 hc1 x0).1 S512x1.size (by sl_kernel_rfl) y

/-- At the first point the stores into the column buffer cover it. -/
theorem cover0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) (y : S1x4096.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x4096.size (by sl_kernel_rfl) y

/-- The row buffer after the first point. -/
def out0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) : Vec F S512x1 .f32 :=
  VO0_1.read (Elt F) (VO0_1.writes (Elt F) VO0_1.junk (kernelRun0_A c i arg1 harg1 arg2 harg2 arg3 harg3 hc0 hc1 x0).1)

/-- The column buffer after the first point. -/
def out0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) : Vec F S1x4096 .f32 :=
  VO0_2.read (Elt F) (VO0_2.writes (Elt F) VO0_2.junk (kernelRun0_A c i arg1 harg1 arg2 harg2 arg3 harg3 hc0 hc1 x0).2.1)

/-- At a later point the stores into the row buffer cover it. -/
theorem cover0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) (y : S512x1.Idx) :
    ∃ pc ∈ (kernelRun0_B c i arg1 harg1 arg2 harg2 arg3 harg3 hc0 hc1 x0 xo2).1, y ∈ pc.1.set :=
  View.cover_of_tiledL (kernelRun0_B c i arg1 harg1 arg2 harg2 arg3 harg3 hc0 hc1 x0 xo2).1 S512x1.size (by sl_kernel_rfl) y

/-- At a later point the stores into the column buffer cover it. -/
theorem cover0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) (y : S1x4096.Idx) :
    ∃ pc ∈ (kernelRun0_B c i arg1 harg1 arg2 harg2 arg3 harg3 hc0 hc1 x0 xo2).2.1, y ∈ pc.1.set :=
  View.cover_of_tiledL (kernelRun0_B c i arg1 harg1 arg2 harg2 arg3 harg3 hc0 hc1 x0 xo2).2.1 S1x4096.size (by sl_kernel_rfl) y

/-- The row buffer after a later point. -/
def out0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) : Vec F S512x1 .f32 :=
  VO0_1.read (Elt F) (VO0_1.writes (Elt F) VO0_1.junk (kernelRun0_B c i arg1 harg1 arg2 harg2 arg3 harg3 hc0 hc1 x0 xo2).1)

/-- The column buffer after a later point, from what it held before (`xo2`). -/
def out0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) : Vec F S1x4096 .f32 :=
  VO0_2.read (Elt F) (VO0_2.writes (Elt F) VO0_2.junk (kernelRun0_B c i arg1 harg1 arg2 harg2 arg3 harg3 hc0 hc1 x0 xo2).2.1)

/-! ## The two result buffers after each point -/

/-- The row buffer and the column buffer after the body at point `n`: the first point's case at a point that is
    a multiple of 8 (only point 0), else the later points' case over what the column buffer held after point
    `n - 1`. -/
def outsAt0 (c : Dev nD) : (n : ℕ) → n < cfg0.N → Vec F S512x1 .f32 × Vec F S1x4096 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => ((hcond0_1 ⟨0, hn⟩).mp h) (Nat.zero_mod _)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => ((hcond0_1 ⟨0, hn⟩).mp h) (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => ((hcond0_1 ⟨n + 1, hn⟩).mp h) h0) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => ((hcond0_1 ⟨n + 1, hn⟩).mp h) h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h0) (iblk0 V c 0 ⟨n + 1, hn⟩) (outsAt0 c n (Nat.lt_of_succ_lt hn)).2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h0) (iblk0 V c 0 ⟨n + 1, hn⟩) (outsAt0 c n (Nat.lt_of_succ_lt hn)).2)

/-- At the first point. -/
theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (fun h => ((hcond0_1 t).mp h) h0) (iblk0 V c 0 t), out0_A_2 c (grid0.coords t) (ms0_0 t) (hs0_0 t) (ms0_1 t) (hs0_1 t) (ms0_2 t) (hs0_2 t) ((hcond0_0 t).mpr h0) (fun h => ((hcond0_1 t).mp h) h0) (iblk0 V c 0 t)) := by
  obtain ⟨n, hn⟩ := t
  cases n with
  | zero => exact rfl
  | succ n => exact (dif_pos h0).trans rfl

/-- At a later point, over what the point before left in the column buffer. -/
theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) ((hcond0_1 t).mpr h0) (iblk0 V c 0 t) (outsAt0 V c (t.val - 1) (Nat.lt_of_le_of_lt (Nat.sub_le _ _) t.isLt)).2, out0_B_2 c (grid0.coords t) (ms0_0 t) (hs0_0 t) (ms0_1 t) (hs0_1 t) (ms0_2 t) (hs0_2 t) (fun h => h0 ((hcond0_0 t).mp h)) ((hcond0_1 t).mpr h0) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data of the first kernel's pipeline -/

/-- The arrays as the kernel finds them; after the body at point `t` the A window's buffer at its block and the
    two result buffers at `outsAt0`; nothing else kept between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The A window's buffer holds block `t` of A at point `t`. -/
theorem before0_0 (c : Dev nD) (t : Fin cfg0.N) (d) : (dat0 V c).before 0 t d = iblk0 V c 0 t :=
  before0_0_of V (dat0 V c) (A_eq0 V c 0) (after0_0 V c) t d

/-- At a later point the column buffer holds what the body left in it at the point before: it has not been written
    back in between (it is written back after the last point only) and every point stores into it. -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    live0_2 (fun _ _ => rfl)]
  dsimp only [dat0]

/-! ## The body at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point: the A window's buffer holds its block; at the first point both result buffers are
    stored whole whatever they held; at a later point the column buffer holds what the point before left, and
    the body adds to it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 8 := lt_of_lt_of_eq t.isLt (show cfg0.N = 8 from N_0)
  by_cases h0 : t.val % 8 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) ((hcond0_0 t).mpr h0) (fun h => ((hcond0_1 t).mp h) h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _)
    · unfold owns; iexists _; isplitr
      swap; · iexact H2
      ipureintro; exact View.read_writes_of_cover _ _ _ _ _ (cover0_A_2 c _ _ _ _ _ _ _ _ _ _)
  · rw [outsAt0_B V c t h0]
    simp only [before0_2_B V c t h0]
    unfold out0_B_1 out0_B_2; (try dsimp only)
    iintro ⟨HΦ, Ho, ⟨%d0, H0⟩, ⟨%d1, H1⟩, ⟨%d2, H2⟩⟩
    iapply ((kernelRun0_B c (grid0.coords t) (ms0_0 t) (hs0_0 t) (ms0_1 t) (hs0_1 t) (ms0_2 t) (hs0_2 t) (fun h => h0 ((hcond0_0 t).mp h)) ((hcond0_1 t).mpr h0) (iblk0 V c 0 t) _).2.2 Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _)
    · unfold owns; iexists _; isplitr
      swap; · iexact H2
      ipureintro; exact View.read_writes_of_cover _ _ _ _ _ (cover0_B_2 c _ _ _ _ _ _ _ _ _ _ _)

/-- The body obligation of the first kernel's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.R1Runs.lean ====
/-
  The second kernel on its grid of 4 x 4 x 4 points (row block, column block, inner block k): what is shared by
  the three ways a grid point runs its body. With r the row sums and s the column sums of A, the kernel forms
  P = (r + s - 2 A) * A entrywise on a 1024 x 1024 block, rounds P and the W block to bf16 and adds their matrix
  product to an accumulator it keeps between points. At k = 0 the accumulator is first filled with zeros; at
  k = 1, 2 it only accumulates; at k = 3, after accumulating, it stores accumulator + bias row as the output
  block. The output block is stored, and written back, at the points with k = 3 only.
-/
import proofs.«132442_j58583353917526_1_alg».proof.Proof.KI.R0Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the kernel is entered from, per core
variable (V : (c : Dev nD) → (b : Ref sig .tc) → Buf (Elt F) ((c : Thread nD τ).loc b))

/-! ## The blocks of the second kernel's windows -/

/-- Block `t` of window `w`'s array, as the kernel finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of window 0 (the A block) holds block `t` of its array when the body runs at point `t`, whether
    the block was moved in at that point or at an earlier one with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The buffer of window 1 (the row-sum column) holds block `t` of its array when the body runs at point `t`, whether
    the block was moved in at that point or at an earlier one with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The buffer of window 2 (the column-sum row) holds block `t` of its array when the body runs at point `t`, whether
    the block was moved in at that point or at an earlier one with the same block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The buffer of window 3 (the W block) holds block `t` of its array when the body runs at point `t`, whether
    the block was moved in at that point or at an earlier one with the same block index. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The buffer of window 4 (the bias row) holds block `t` of its array when the body runs at point `t`, whether
    the block was moved in at that point or at an earlier one with the same block index. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Which points are first and last in the inner index -/

/-- "This is the first inner block": the body's test `k == 0`. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last inner block": the body's test `k == 3`. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are stored into -/

-- the five inputs are in use at every point
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a first inner block the output block is not stored into, -/
theorem idleAt1_5_A : ∀ t : Fin cfg1.N, cond1_0 (grid1.coords t) → ¬cond1_1 (grid1.coords t) → cfg1.idle 5 (grid1.coords t) = true := by decide +kernel
/-- nor written back. -/
theorem noFlush1_5_A : ∀ t : Fin cfg1.N, cond1_0 (grid1.coords t) → ¬cond1_1 (grid1.coords t) → (cfg1.win 5).flush t = false := by decide +kernel
/-- At a middle inner block the output block is not stored into, -/
theorem idleAt1_5_B : ∀ t : Fin cfg1.N, ¬cond1_0 (grid1.coords t) → ¬cond1_1 (grid1.coords t) → cfg1.idle 5 (grid1.coords t) = true := by decide +kernel
/-- nor written back. -/
theorem noFlush1_5_B : ∀ t : Fin cfg1.N, ¬cond1_0 (grid1.coords t) → ¬cond1_1 (grid1.coords t) → (cfg1.win 5).flush t = false := by decide +kernel
/-- At a last inner block the output block is stored. -/
theorem liveAt1_5_C : ∀ t : Fin cfg1.N, ¬cond1_0 (grid1.coords t) → cond1_1 (grid1.coords t) → cfg1.idle 5 (grid1.coords t) = false := by decide +kernel

/-! ## The buffers a point works on -/

/-- One buffer of the output window, through which its contents are stated. -/
abbrev VO1_5 : View sig .tc .vmem S1024x1024 .f32 := (Memref.whole cc1_stg5_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole buffer of the kernel's own, kept from one point to the next. -/
abbrev scM1_0 : Memref sig .tc .vmem S1024x1024 .f32 := Memref.whole cc1_scratch0
/-- The accumulator as a view: what it holds is stated through it. -/
abbrev VS1_0 : View sig .tc .vmem S1024x1024 .f32 := scM1_0.view

/-! ## What the kernel holds besides its windows -/

/-- The five buffers the first kernel worked in, each whole at some contents: the second kernel never touches them. -/
def otherScoped (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f))

/-- Seven conjuncts regrouped: the first five together, then the sixth, then the seventh. -/
theorem regroup_five (B0 B1 B2 B3 B4 S G : sProp 𝕄) :
    iprop((B0 ∗ B1 ∗ B2 ∗ B3 ∗ B4 ∗ S) ∗ G) = iprop(((B0 ∗ B1 ∗ B2 ∗ B3 ∗ B4) ∗ S) ∗ G) :=
  BI.Entails.antisymm
    (show iprop((B0 ∗ B1 ∗ B2 ∗ B3 ∗ B4 ∗ S) ∗ G) ⊢ iprop(((B0 ∗ B1 ∗ B2 ∗ B3 ∗ B4) ∗ S) ∗ G) from by
      iintro ⟨⟨H0, H1, H2, H3, H4, HS⟩, Hg⟩
      isplitr [Hg]
      · isplitr [HS]
        · isplitl [H0]; · iexact H0
          isplitl [H1]; · iexact H1
          isplitl [H2]; · iexact H2
          isplitl [H3]; · iexact H3
          iexact H4
        · iexact HS
      · iexact Hg)
    (show iprop(((B0 ∗ B1 ∗ B2 ∗ B3 ∗ B4) ∗ S) ∗ G) ⊢ iprop((B0 ∗ B1 ∗ B2 ∗ B3 ∗ B4 ∗ S) ∗ G) from by
      iintro ⟨⟨⟨H0, H1, H2, H3, H4⟩, HS⟩, Hg⟩
      isplitr [Hg]
      · isplitl [H0]; · iexact H0
        isplitl [H1]; · iexact H1
        isplitl [H2]; · iexact H2
        isplitl [H3]; · iexact H3
        isplitl [H4]; · iexact H4
        iexact HS
      · iexact Hg)

/-- What the second kernel is entered with besides its windows: those five buffers, the accumulator at some
    contents, and the generator register at some state. -/
theorem PhiA1_eq (c : Dev nD) :
    (Pipeline.ΦA spec1 c : sProp 𝕄)
      = iprop(iprop(otherScoped (F := F) c ∗ (∃ d, owns (c : Thread nD τ) scM1_0 fullShare d)) ∗ (∃ r, prngReg c r)) := by
  unfold Pipeline.ΦA; rw [scopedRest1_eq]
  refine (regroup_five _ _ _ _ _ _ _).trans ?_
  unfold otherScoped; simp only [scM1_0, owns_whole]; rfl

end Cert.KernelIdeal.Frame

end
-- ==== Proof.KI.R1RunA.lean ====
/-
  The second kernel's body at a first inner block (k = 0): the accumulator, whatever it held, is filled with
  zeros and then the bf16 product of P = (r + s - 2 A) * A and the W block is added to it; the output buffer is
  not touched. What the accumulator ends with is recorded as the list of pieces the body's stores wrote, found by
  running the body.
-/
import proofs.«132442_j58583353917526_1_alg».proof.Proof.KI.R1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first inner block, on whole buffers: the five inputs at `x0 … x4`, the output buffer at `xi5`,
    the accumulator at anything. It leaves the inputs and the output buffer as they were and the accumulator with
    its stores written. -/
noncomputable def kernelRun1_A (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) :
    Σ' (L5 : List (View.Piece (Elt F) S1024x1024 .f32)), { LS0 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨[], ?_, fun xi5 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Frame

end
-- ==== Proof.KI.R1RunB.lean ====
/-
  The second kernel's body at a middle inner block (k = 1, 2): the bf16 product of P = (r + s - 2 A) * A and the
  W block is added to what the accumulator held from the point before; the output buffer is not touched. What the
  accumulator ends with is recorded as the list of pieces the body's stores wrote, found by running the body.
-/
import proofs.«132442_j58583353917526_1_alg».proof.Proof.KI.R1RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle inner block, on whole buffers: the five inputs at `x0 … x4`, the output buffer at `xi5`,
    the accumulator at `xs0`. It leaves the inputs and the output buffer as they were and the accumulator with its
    store written. -/
noncomputable def kernelRun1_B (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) :
    Σ' (L5 : List (View.Piece (Elt F) S1024x1024 .f32)), { LS0 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨[], ?_, fun xi5 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Frame

end
-- ==== Proof.KI.R1RunC.lean ====
/-
  The second kernel's body at a last inner block (k = 3): the bf16 product of P = (r + s - 2 A) * A and the W
  block is added to what the accumulator held from the point before, and accumulator + bias row is stored as the
  output block, whatever the output buffer held. What the accumulator and the output buffer end with is recorded
  as the lists of pieces the body's stores wrote, found by running the body.
-/
import proofs.«132442_j58583353917526_1_alg».proof.Proof.KI.R1RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last inner block, on whole buffers: the five inputs at `x0 … x4`, the output buffer at anything,
    the accumulator at `xs0`. It leaves the inputs as they were and the accumulator and the output buffer each
    with its store written. -/
noncomputable def kernelRun1_C (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__fused_kernel i arg3 harg3 arg4 harg4 arg5 harg5 arg6 harg6 arg7 harg7 arg8 harg8 arg9 harg9) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Frame

end
-- ==== Proof.KI.R1Frame.lean ====
/-
  The second kernel over its whole grid. Per case (first, middle, last inner block) what the accumulator and the
  output buffer end with, read back from the pieces the body's stores wrote, and that those pieces cover the
  buffer; point by point what the two hold (`outsAt1`: the accumulator carried from each point to the next, the
  output block stored at the last inner block of each (row block, column block) pair); the proof data of the
  pipeline that runs the kernel; and the body obligation at every point.
-/
import proofs.«132442_j58583353917526_1_alg».proof.Proof.KI.R1RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the kernel is entered from, per core
variable (V : (c : Dev nD) → (b : Ref sig .tc) → Buf (Elt F) ((c : Thread nD τ).loc b))

/-! ## What each case leaves -/

/-- A first inner block stores nothing into the output buffer: no pieces. A placeholder that nothing reads, since
    at these points the output block is neither written back nor read at the next point. -/
def out1_A_5 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) : Vec F S1024x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- At a first inner block the accumulator's pieces (the zero fill, then the sum) cover it. -/
theorem scover1_A_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (y : S1024x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x1024.size (by sl_kernel_rfl) y

/-- What a first inner block leaves in the accumulator: its pieces read back. -/
def sout1_A_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- A middle inner block stores nothing into the output buffer: no pieces, a placeholder as at a first one. -/
def out1_B_5 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) : Vec F S1024x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- At a middle inner block the accumulator's one piece (the sum) covers it. -/
theorem scover1_B_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x1024.size (by sl_kernel_rfl) y

/-- What a middle inner block leaves in the accumulator: its piece read back. -/
def sout1_B_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- At a last inner block the output buffer's one piece (accumulator + bias row) covers it. -/
theorem cover1_C_5 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x1024.size (by sl_kernel_rfl) y

/-- What a last inner block leaves in the output buffer: its piece read back. -/
def out1_C_5 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- At a last inner block the accumulator's one piece (the sum) covers it. -/
theorem scover1_C_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x1024.size (by sl_kernel_rfl) y

/-- What a last inner block leaves in the accumulator: its piece read back. -/
def sout1_C_0 (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output buffer and the accumulator hold after each point -/

/-- THE ACCUMULATION. What the output buffer and the accumulator hold after the body at position `n` (a pair: the
    output buffer, then the accumulator): the case k = n mod 4 selects, run at the point's buffers and input
    blocks, the accumulator taken at what position `n - 1` left in it. -/
def outsAt1 (c : Dev nD) : (n : ℕ) → n < cfg1.N → Vec F S1024x1024 .f32 × Vec F S1024x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by have hN : n + 1 < 64 := lt_of_lt_of_eq hn (show cfg1.N = 64 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a first inner block. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a middle inner block: over what the point before left in the accumulator. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last inner block: over what the point before left in the accumulator. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the kernel holds besides its windows before position `n`: before the first point what it is entered with
    (the accumulator at anything); afterwards the accumulator at what the point before left in it, the first
    kernel's five buffers and the generator register as they are. -/
def PhiS1 (c : Dev nD) : (n : ℕ) → n ≤ cfg1.N → sProp 𝕄
  | 0, _ => Pipeline.ΦA spec1 c
  | n + 1, hn => iprop(iprop(otherScoped (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(otherScoped (F := F) c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(otherScoped (F := F) c ∗ owns (c : Thread nD τ) scM1_0 fullShare ((outsAt1 V c (n - 1) (by omega)).2)) ∗ (∃ r, prngReg c r)) := by
  cases n with
  | zero => exact absurd rfl hz
  | succ n => rfl

/-! ## The second kernel's proof data -/

/-- The proof data of the second kernel on core `c`: the arrays as the kernel finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the contents the kernel is entered from. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's buffer holds its block at every point, moved in there or earlier. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point. The inputs' buffers hold their blocks; k = t mod 4 says which case the point is in;
    the invariant hands the body the accumulator at what the point before left (at anything at the first point)
    and takes it back at this point's contents, the first kernel's buffers and the generator register passing
    through; the output buffer comes back stored at a last inner block and untouched elsewhere; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · -- a first inner block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HB, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HB HS0 Hg]
        · isplitr [Hg]
          · isplitl [HB]; · iexact HB
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HB, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HB HS0 Hg]
        · isplitr [Hg]
          · isplitl [HB]; · iexact HB
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · -- a last inner block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HB, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HB HS0 Hg]
        · isplitr [Hg]
          · isplitl [HB]; · iexact HB
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · -- a middle inner block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HB, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HB HS0 Hg]
        · isplitr [Hg]
          · isplitl [HB]; · iexact HB
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the kernel was entered with: the accumulator's
    named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HB, HS0⟩, Hg⟩
  isplitl [HB HS0]
  · isplitl [HB]; · iexact HB
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frame

end
-- ==== Proof.KI.Run.lean ====
/-
  The whole program on a core: the first kernel's region, the reshape of b into a row, the second kernel's region.
  The contents of the core's buffers are followed from the launch through the three items: after the first region
  its two result arrays hold what its write-backs leave and everything else is as before; the reshape writes its
  own result; after the second region the output array holds what its write-backs leave. No item writes an
  argument array, so the arguments end as launched; and the output array ends at the second region's final
  contents, which the value modules read.
-/
import proofs.«132442_j58583353917526_1_alg».proof.Proof.KI.R0Frame
import proofs.«132442_j58583353917526_1_alg».proof.Proof.KI.R1Frame
import proofs.«132442_j58583353917526_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch, which is also where the first region is entered. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first region: its arrays at what the pipeline leaves, the rest as before. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of b, where the second region is entered. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The reshape writes only its own result. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := W3_of m ρ c main_arg1 (by decide)
    _ = W0 m ρ c (Proc.devRef .tc main_arg1) := W2_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W0 m ρ c (Proc.devRef .tc main_arg2) := W2_of_ne m ρ c main_arg2 (by decide)
    _ = m ((c : Thread nD τ).loc main_arg2) := rfl

/-! ## The proof data of the two pipelines and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- The generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    refine (hout1 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting;
    the output array ends at what the second region's write-backs leave and each argument array as launched. -/
theorem run_main : θ_run defs (onTc (τ := τ) (main (F := F))) ⟨m, fun _ => 0, ρ⟩ (fun r => ∀ c : Dev nD,
      r.2.mem ((c.tc : Thread nD τ).loc main_v2) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v2 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Frame

end
-- ==== Proof.Val.Spec.lean ====
/-
  The specification of the value claim, stated once over the literal shapes and over no program.

  With A, W : [4096, 4096] and b : [4096], all entries extended reals and every operation exact:
    rowSum A i = Σ_q A(i,q)                 (the sum of row i)
    colSum A k = Σ_r A(r,k)                 (the sum of column k)
    mask A i k = ((rowSum A i + colSum A k) − two · A(i,k)) · A(i,k)
    G A W b (i,j) = (Σ_k mask A i k · W(k,j)) + b(j)
  where `two` is the single-precision word 0x40000000 read as an extended real; the word is carried
  as it stands and never evaluated, since the same word stands on both sides of the claim.
-/
import Idealize.ShloMosaic.PureOps.Ideal
import Idealize.ShloMosaic.PureOps.Ideal.Laws
import Idealize.ShloMosaic.Lib.ValueIdx
import Mathlib.Algebra.BigOperators.Group.Finset.Basic
import Mathlib.Data.EReal.Basic

noncomputable section

open scoped BigOperators

namespace Cert.Spec

open Idealize.ShloMosaic

/-- The square shape [4096, 4096] of A, W and the result. -/
abbrev SA : Shape := ⟨2, ![4096, 4096]⟩
/-- The vector shape [4096] of b. -/
abbrev Sb : Shape := ⟨1, ![4096]⟩

/-- The sum of row `i` of A. -/
def rowSum (A : FVec Ideal SA .f32) (i : Fin 4096) : EReal := ∑ q : Fin 4096, A (ValueIdx.ix2 i q)

/-- The sum of column `k` of A. -/
def colSum (A : FVec Ideal SA .f32) (k : Fin 4096) : EReal := ∑ r : Fin 4096, A (ValueIdx.ix2 r k)

/-- The single-precision word 0x40000000 as an extended real. -/
def two : EReal := Ideal.ofBits .f32 0x40000000#32

/-- The masked entry: ((row sum + column sum) − two · A(i,k)) · A(i,k). -/
def mask (A : FVec Ideal SA .f32) (i k : Fin 4096) : EReal :=
  ((rowSum A i + colSum A k) - two * A (ValueIdx.ix2 i k)) * A (ValueIdx.ix2 i k)

/-- The result array: the masked array times W, plus b along the rows. -/
def G (A W : FVec Ideal SA .f32) (b : FVec Ideal Sb .f32) : FVec Ideal SA .f32 :=
  fun j => (∑ k : Fin 4096, mask A (j 0) k * W (ValueIdx.ix2 k (j 1))) + b (ValueIdx.ix1 (j 1))

/-- The result at the entry (i, j). -/
theorem G_apply (A W : FVec Ideal SA .f32) (b : FVec Ideal Sb .f32) (i j : Fin 4096) :
    G A W b (ValueIdx.ix2 i j) = (∑ k : Fin 4096, mask A i k * W (ValueIdx.ix2 k j)) + b (ValueIdx.ix1 j) := rfl

end Cert.Spec

end
-- ==== Proof.Val.RefVal.lean ====
/-
  The reference side of the value claim: the host program's result array is the specification's G
  of its three argument arrays.

  The host program forms the row sums and the column sums of A (each a sum started from the zero
  word, which is the extended real 0, so 0 + Σ = Σ), spreads them over the square, adds them,
  subtracts two · A, multiplies by A, contracts the second axis of that array against the first
  axis of W, and adds b along the rows.  Read entry by entry this is
    (Σ_k ((Σ_q A(i,q) + Σ_r A(r,k)) − two · A(i,k)) · A(i,k) · W(k,j)) + b(j),
  which is G A W b (i,j) word for word; no law of arithmetic beyond 0 + x = x is used.
-/
import proofs.«132442_j58583353917526_1_alg».proof.Proof.Val.Spec
import proofs.«132442_j58583353917526_1_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## Where each stage reads its operand, in coordinates -/

/-- Row i of the [4096] vector of row sums reads row i of A at column k. -/
theorem idx_v0_eq (i k : Fin 4096) : idx_main_v0 (ix1 i) k = ix2 i k :=
  funext fun a => Fin.ext (by match a with | ⟨0, _⟩ => rfl | ⟨1, _⟩ => rfl)

/-- Entry k of the [4096] vector of column sums reads column k of A at row r. -/
theorem idx_v1_eq (k r : Fin 4096) : idx_main_v1 (ix1 k) r = ix2 r k :=
  funext fun a => Fin.ext (by match a with | ⟨0, _⟩ => rfl | ⟨1, _⟩ => rfl)

/-- The row sums spread over the square: entry (i, k) reads entry i. -/
theorem idx_v4_eq (i k : Fin 4096) : idx_main_v2 (idx_main_v4 (ix2 i k)) = ix1 i :=
  funext fun a => Fin.ext (by match a with | ⟨0, _⟩ => rfl)

/-- The column sums spread over the square: entry (i, k) reads entry k. -/
theorem idx_v5_eq (i k : Fin 4096) : idx_main_v3 (idx_main_v5 (ix2 i k)) = ix1 k :=
  funext fun a => Fin.ext (by match a with | ⟨0, _⟩ => rfl)

/-- b spread along the rows: entry (i, j) reads entry j. -/
theorem idx_v13_eq (i j : Fin 4096) : idx_main_v12 (idx_main_v13 (ix2 i j)) = ix1 j :=
  funext fun a => Fin.ext (by match a with | ⟨0, _⟩ => rfl)

/-- The contraction's left operand at output (i, j) and contraction index k is entry (i, k). -/
theorem lidx_v11_eq (i j k : Fin 4096) : lidx_main_v11 (ix2 i j) k = ix2 i k :=
  funext fun a => Fin.ext (by match a with | ⟨0, _⟩ => rfl | ⟨1, _⟩ => rfl)

/-- The contraction's right operand at output (i, j) and contraction index k is entry (k, j). -/
theorem ridx_v11_eq (i j k : Fin 4096) : ridx_main_v11 (ix2 i j) k = ix2 k j :=
  funext fun a => Fin.ext (by match a with | ⟨0, _⟩ => rfl | ⟨1, _⟩ => rfl)

/-! ## The stages at an entry -/

/-- The row-sum stage at i is the specification's row sum: 0 + Σ_q A(i,q). -/
theorem v0_at (A : FVec Ideal S4096x4096 .f32) (i : Fin 4096) :
    val_main_v0 (F := Ideal) A (ix1 i) = Cert.Spec.rowSum A i := by
  rw [val_main_v0_apply, val_main_cst_apply]
  simp only [idx_v0_eq, Ideal.ofBits_def, Ideal.ofBits_zero_f32, zero_add]
  rfl

/-- The column-sum stage at k is the specification's column sum: 0 + Σ_r A(r,k). -/
theorem v1_at (A : FVec Ideal S4096x4096 .f32) (k : Fin 4096) :
    val_main_v1 (F := Ideal) A (ix1 k) = Cert.Spec.colSum A k := by
  rw [val_main_v1_apply, val_main_cst_0_apply]
  simp only [idx_v1_eq, Ideal.ofBits_def, Ideal.ofBits_zero_f32, zero_add]
  rfl

/-- The row sums spread over the square, at (i, k). -/
theorem v4_at (A : FVec Ideal S4096x4096 .f32) (i k : Fin 4096) :
    val_main_v4 (F := Ideal) A (ix2 i k) = Cert.Spec.rowSum A i := by
  rw [val_main_v4_apply, val_main_v2_apply, idx_v4_eq, v0_at]

/-- The column sums spread over the square, at (i, k). -/
theorem v5_at (A : FVec Ideal S4096x4096 .f32) (i k : Fin 4096) :
    val_main_v5 (F := Ideal) A (ix2 i k) = Cert.Spec.colSum A k := by
  rw [val_main_v5_apply, val_main_v3_apply, idx_v5_eq, v1_at]

/-- The constant two spread over the square, at any entry. -/
theorem v7_at (j : S4096x4096.Idx) : val_main_v7 (F := Ideal) j = Cert.Spec.two := by
  rw [val_main_v7_apply, val_main_cst_1_apply]
  rfl

/-- The masked array at (i, k): ((row sum + column sum) − two · A(i,k)) · A(i,k). -/
theorem v10_at (A : FVec Ideal S4096x4096 .f32) (i k : Fin 4096) :
    val_main_v10 (F := Ideal) A (ix2 i k) = Cert.Spec.mask A i k := by
  rw [val_main_v10_apply, val_main_v9_apply, val_main_v6_apply, val_main_v8_apply, v4_at, v5_at, v7_at]
  rfl

/-- b spread along the rows, at (i, j). -/
theorem v13_at (b : FVec Ideal S4096 .f32) (i j : Fin 4096) :
    val_main_v13 (F := Ideal) b (ix2 i j) = b (ix1 j) := by
  rw [val_main_v13_apply, val_main_v12_apply, idx_v13_eq]

/-- The host program's last stage is the specification's G. -/
theorem val_eq_G (A W : FVec Ideal S4096x4096 .f32) (b : FVec Ideal S4096 .f32) :
    val_main_v14 (F := Ideal) A W b = Cert.Spec.G A W b := by
  funext j
  obtain ⟨p, q, rfl⟩ : ∃ (p q : Fin 4096), j = ix2 p q := ⟨j 0, j 1, eq_ix2 j⟩
  rw [val_main_v14_apply, val_main_v11_apply, v13_at, Cert.Spec.G_apply]
  simp only [lidx_v11_eq, ridx_v11_eq, v10_at, Ideal.addf_def]

/-! ## The run -/

/-- Every weakly fair execution of the host program terminates with its result array at G of the
    argument arrays as launched, and the arguments unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v14) = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans ((val_main_v14_eq (F := Ideal) _ _ _).trans (val_eq_G _ _ _)), (h c).2⟩)
    (Cert.ReferenceIdeal.Value.run (F := Ideal) m' g')

end Cert.ReferenceIdeal.RefValue

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Val.R0Val.lean ====
/-
  The first kernel's two result arrays at the exact reading. The kernel walks over the eight blocks of 512 rows
  of A. At each block it stores the sums of the block's rows, as a column of 512 entries, and that column is
  written back to rows 512 t .. 512 t + 511 of the first result array; so entry i of that array is the sum of
  row i of A. The second result's buffer holds, after block n, the sums of the columns over the rows below
  512 (n + 1): the first block stores its column sums, every later block adds its column sums to what the
  buffer held. The buffer is written back once, after the last block, when it holds the sums of whole columns.
-/
import proofs.«132442_j58583353917526_1_alg».proof.Proof.KI.R0Frame
import proofs.«132442_j58583353917526_1_alg».proof.Proof.Val.Spec
import proofs.«132442_j58583353917526_1_alg».proof.Proof.LibTile
import proofs.«132442_j58583353917526_1_alg».proof.Proof.LibSums
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.Tactic Idealize.ShloMosaic.ValueIdx
open Idealize.SL.Sem
open Idealize.ShloMosaic.Pipeline (Dat)
open scoped BigOperators

/-! ## What each case's stores leave, as the body's arithmetic of what it loaded -/

section Pieces

variable {F : FTy → Type} [FloatOps F]

/-- The corner (0, 0) of a rank-2 buffer: every store and load of the body starts there. -/
theorem origin2 : (![0, 0] : Fin 2 → Nat) = fun _ => 0 := funext fun a => by fin_cases a <;> rfl

/-- At the first block the row buffer is left holding the block's row sums. -/
theorem out0_A_1_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) :
    out0_A_1 c i arg1 harg1 arg2 harg2 arg3 harg3 hc0 hc1 x0 = k0_pay1 x0 := by
  unfold out0_A_1
  rw [View.read_writes_eq_canon _ _ _ (cover0_A_1 c i arg1 harg1 arg2 harg2 arg3 harg3 hc0 hc1 x0)]
  unfold kernelRun0_A
  dsimp only
  sl_unfold_words
  rw [View.canon_unit_zero origin2]
  simp only [View.readAt_eq_ld, harg1.read_unread, View.ld_unit_zero (S := S512x4096) origin2]

/-- At the first block the column buffer is left holding the block's column sums. -/
theorem out0_A_2_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : cond0_0 i) (hc1 : ¬cond0_1 i)
    (x0 : Vec F S512x4096 .f32) :
    out0_A_2 c i arg1 harg1 arg2 harg2 arg3 harg3 hc0 hc1 x0 = k0_pay2 x0 := by
  unfold out0_A_2
  rw [View.read_writes_eq_canon _ _ _ (cover0_A_2 c i arg1 harg1 arg2 harg2 arg3 harg3 hc0 hc1 x0)]
  unfold kernelRun0_A
  dsimp only
  sl_unfold_words
  rw [View.canon_unit_zero origin2]
  simp only [View.readAt_eq_ld, harg1.read_unread, View.ld_unit_zero (S := S512x4096) origin2]

/-- At a later block the row buffer is left holding the block's row sums. -/
theorem out0_B_1_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) :
    out0_B_1 c i arg1 harg1 arg2 harg2 arg3 harg3 hc0 hc1 x0 xo2 = k0_pay1 x0 := by
  unfold out0_B_1
  rw [View.read_writes_eq_canon _ _ _ (cover0_B_1 c i arg1 harg1 arg2 harg2 arg3 harg3 hc0 hc1 x0 xo2)]
  unfold kernelRun0_B
  dsimp only
  sl_unfold_words
  rw [View.canon_unit_zero origin2]
  simp only [View.readAt_eq_ld, harg1.read_unread, harg3.read_unread, View.ld_unit_zero (S := S512x4096) origin2, View.ld_unit_zero (S := S1x4096) origin2]

/-- At a later block the column buffer is left holding what it held plus the block's column sums. -/
theorem out0_B_2_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S1x4096 .f32) (harg3 : arg3.IsWhole) (hc0 : ¬cond0_0 i) (hc1 : cond0_1 i)
    (x0 : Vec F S512x4096 .f32) (xo2 : Vec F S1x4096 .f32) :
    out0_B_2 c i arg1 harg1 arg2 harg2 arg3 harg3 hc0 hc1 x0 xo2 = k0_pay3 x0 xo2 := by
  unfold out0_B_2
  rw [View.read_writes_eq_canon _ _ _ (cover0_B_2 c i arg1 harg1 arg2 harg2 arg3 harg3 hc0 hc1 x0 xo2)]
  unfold kernelRun0_B
  dsimp only
  sl_unfold_words
  rw [View.canon_unit_zero origin2]
  simp only [View.readAt_eq_ld, harg1.read_unread, harg3.read_unread, View.ld_unit_zero (S := S512x4096) origin2, View.ld_unit_zero (S := S1x4096) origin2]

end Pieces

/-! ## The body's arithmetic at the exact reading, entry by entry -/

/-- The row sums of a block kept as a column: at (p, u), the sum of row p of the block. -/
theorem pay1_apply (x : Vec Ideal S512x4096 .f32) (p : Fin 512) (u : Fin 1) :
    k0_pay1 (F := Ideal) x (ix2 p u) = ∑ q : Fin 4096, x (ix2 p q) := by
  unfold k0_pay1
  exact Cert.Tile.rowSumCol_apply (a := 512) (b := 4096) x _ _ _ _ p u

/-- The column sums of a block kept as a row: at (u, q), the sum of column q of the block. -/
theorem pay2_apply (x : Vec Ideal S512x4096 .f32) (u : Fin 1) (q : Fin 4096) :
    k0_pay2 (F := Ideal) x (ix2 u q) = ∑ p : Fin 512, x (ix2 p q) := by
  unfold k0_pay2
  exact (shapeCast_a_1a_apply (a := 4096) _ _ u q).trans (Cert.Tile.colSum_apply (a := 512) (b := 4096) x _ _ _ q)

/-- What the row held plus the column sums of the block: at (u, q). -/
theorem pay3_apply (x : Vec Ideal S512x4096 .f32) (y : Vec Ideal S1x4096 .f32) (u : Fin 1) (q : Fin 4096) :
    k0_pay3 (F := Ideal) x y (ix2 u q) = y (ix2 u q) + ∑ p : Fin 512, x (ix2 p q) := by
  unfold k0_pay3
  exact congrArg₂ (· + ·) (congrFun (shapeCast_self y _) (ix2 u q)) (pay2_apply x u q)

/-! ## A block of A is 512 consecutive rows of A -/

section Blocks

variable {F : FTy → Type} [FloatOps F]
variable (V : (c : Dev nD) → (b : Ref sig .tc) → Buf (Elt F) ((c : Thread nD τ).loc b))

/-- The array A as the kernel finds it. -/
abbrev arrA0 (c : Dev nD) : Vec F S4096x4096 .f32 := V c main_arg0

/-- Block t of A: what the body loads at point t. -/
abbrev blkA0 (c : Dev nD) (t : Fin cfg0.N) : Vec F S512x4096 .f32 := iblk0 V c 0 t

/-- There are eight points. -/
theorem point_lt (t : Fin cfg0.N) : t.val < 8 := lt_of_lt_of_eq t.isLt (show cfg0.N = 8 from N_0)

/-- The A window's block index at point t is (t, 0). -/
theorem indexA : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (p, q) of block t of A is entry (512 t + p, q) of A. -/
theorem blkA0_apply (c : Dev nD) (t : Fin cfg0.N) (p : Fin 512) (q : Fin 4096) :
    blkA0 V c t (ix2 p q)
      = arrA0 V c (ix2 (⟨512 * t.val + p.val, by have := point_lt t; have := p.isLt; omega⟩ : Fin 4096) q) := by
  obtain ⟨e0, e1⟩ := indexA t
  show V c main_arg0 (((cfg0.win 0).blk t).view.emb (ix2 p q)) = V c main_arg0 _
  refine congrArg (V c main_arg0) (funext fun a => Fin.ext ?_)
  match a with
  | ⟨0, _⟩ => show win0_0.index t (0 : Fin 2) * 512 + 1 * p.val = 512 * t.val + p.val; omega
  | ⟨1, _⟩ => show win0_0.index t (1 : Fin 2) * 4096 + 1 * q.val = q.val; omega

end Blocks

/-! ## The two buffers after each point, at the exact reading -/

section Values

variable (V : (c : Dev nD) → (b : Ref sig .tc) → Buf (Elt Ideal) ((c : Thread nD τ).loc b))

/-- The row buffer after point t. -/
abbrev rowBuf (c : Dev nD) (t : Fin cfg0.N) : Vec Ideal S512x1 .f32 := (outsAt0 V c t.val t.isLt).1

/-- The column buffer after point n. -/
abbrev colBuf (c : Dev nD) (n : ℕ) (hn : n < cfg0.N) : Vec Ideal S1x4096 .f32 := (outsAt0 V c n hn).2

/-- Column q of A as a family over its 8 * 512 rows. -/
def colFam (c : Dev nD) (q : Fin 4096) : Fin (8 * 512) → EReal :=
  fun r => arrA0 V c (ix2 (⟨r.val, r.isLt⟩ : Fin 4096) q)

/-- After point t the row buffer holds, at (p, u), the sum of row 512 t + p of A. -/
theorem rowBuf_apply (c : Dev nD) (t : Fin cfg0.N) (p : Fin 512) (u : Fin 1) :
    rowBuf V c t (ix2 p u)
      = ∑ q : Fin 4096, arrA0 V c (ix2 (⟨512 * t.val + p.val, by have := point_lt t; have := p.isLt; omega⟩ : Fin 4096) q) := by
  show (outsAt0 V c t.val t.isLt).1 (ix2 p u) = _
  by_cases h0 : t.val % 8 = 0
  · rw [outsAt0_A V c t h0]
    dsimp only
    refine (congrFun (out0_A_1_eq (F := Ideal) c (grid0.coords t) (ms0_0 t) (hs0_0 t) (ms0_1 t) (hs0_1 t) (ms0_2 t) (hs0_2 t) ((hcond0_0 t).mpr h0) (fun h => ((hcond0_1 t).mp h) h0) (blkA0 V c t)) (ix2 p u)).trans ?_
    refine (pay1_apply (blkA0 V c t) p u).trans ?_
    exact Finset.sum_congr rfl fun q _ => blkA0_apply V c t p q
  · rw [outsAt0_B V c t h0]
    dsimp only
    refine (congrFun (out0_B_1_eq (F := Ideal) c (grid0.coords t) (ms0_0 t) (hs0_0 t) (ms0_1 t) (hs0_1 t) (ms0_2 t) (hs0_2 t) (fun h => h0 ((hcond0_0 t).mp h)) ((hcond0_1 t).mpr h0) (blkA0 V c t) (colBuf V c (t.val - 1) (Nat.lt_of_le_of_lt (Nat.sub_le _ _) t.isLt))) (ix2 p u)).trans ?_
    refine (pay1_apply (blkA0 V c t) p u).trans ?_
    exact Finset.sum_congr rfl fun q _ => blkA0_apply V c t p q

/-- After point n the column buffer holds, at (u, q), the sum of column q of A over the rows of blocks 0 .. n. -/
theorem colBuf_apply (c : Dev nD) (u : Fin 1) (q : Fin 4096) : ∀ (n : ℕ) (hn : n < cfg0.N),
    colBuf V c n hn (ix2 u q)
      = Cert.Sums.prefixBlocks 8 512 (colFam V c q) (n + 1) (lt_of_lt_of_eq hn (show cfg0.N = 8 from N_0))
  | 0, hn => by
    show (outsAt0 V c (⟨0, hn⟩ : Fin cfg0.N).val (⟨0, hn⟩ : Fin cfg0.N).isLt).2 (ix2 u q) = _
    rw [outsAt0_A V c ⟨0, hn⟩ rfl]
    dsimp only
    refine (congrFun (out0_A_2_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr rfl) (fun h => ((hcond0_1 ⟨0, hn⟩).mp h) rfl) (blkA0 V c ⟨0, hn⟩)) (ix2 u q)).trans ?_
    refine (pay2_apply (blkA0 V c ⟨0, hn⟩) u q).trans ?_
    rw [Cert.Sums.prefixBlocks_succ, Cert.Sums.prefixBlocks_zero, zero_add]
    exact Finset.sum_congr rfl fun p _ => blkA0_apply V c ⟨0, hn⟩ p q
  | n + 1, hn => by
    have hB : ¬(⟨n + 1, hn⟩ : Fin cfg0.N).val % 8 = 0 := by
      have := lt_of_lt_of_eq hn (show cfg0.N = 8 from N_0); dsimp only; omega
    show (outsAt0 V c (⟨n + 1, hn⟩ : Fin cfg0.N).val (⟨n + 1, hn⟩ : Fin cfg0.N).isLt).2 (ix2 u q) = _
    rw [outsAt0_B V c ⟨n + 1, hn⟩ hB]
    dsimp only
    refine (congrFun (out0_B_2_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => hB ((hcond0_0 ⟨n + 1, hn⟩).mp h)) ((hcond0_1 ⟨n + 1, hn⟩).mpr hB) (blkA0 V c ⟨n + 1, hn⟩) (colBuf V c n (Nat.lt_of_succ_lt hn))) (ix2 u q)).trans ?_
    refine (pay3_apply (blkA0 V c ⟨n + 1, hn⟩) (colBuf V c n (Nat.lt_of_succ_lt hn)) u q).trans ?_
    rw [Cert.Sums.prefixBlocks_succ]
    exact congrArg₂ (· + ·) (colBuf_apply c u q n (Nat.lt_of_succ_lt hn))
      (Finset.sum_congr rfl fun p _ => blkA0_apply V c ⟨n + 1, hn⟩ p q)

end Values

/-! ## The two result arrays after the run -/

section Arrays

variable (V : (c : Dev nD) → (b : Ref sig .tc) → Buf (Elt Ideal) ((c : Thread nD τ).loc b))

/-- What the first result array ends holding: at (i, u), the sum of row i of A. -/
abbrev rowArr (c : Dev nD) : S4096x1.Idx → EReal := fun i => Cert.Spec.rowSum (arrA0 V c) (i 0)

/-- What the second result array ends holding: at (u, k), the sum of column k of A. -/
abbrev colArr (c : Dev nD) : S1x4096.Idx → EReal := fun i => Cert.Spec.colSum (arrA0 V c) (i 1)

/-- The row window's block index at point t is (t, 0). -/
theorem indexR : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The column window's block index is (0, 0) at every point. -/
theorem indexC : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- What point t writes back to the first result array is rows 512 t .. 512 t + 511 of the row sums. -/
theorem flushedR_eq (c : Dev nD) (t : Fin cfg0.N) :
    (dat0 V c).flushed 1 t = ((cfg0.win 1).blk t).view.read (Elt Ideal) (rowArr V c) := by
  show (cfg0.win 1).cut (grid0.coords t) ((dat0 V c).after 1 t) = _
  rw [after0_1]
  obtain ⟨e0, e1⟩ := indexR t
  funext j
  obtain ⟨p, u, rfl⟩ : ∃ (p : Fin 512) (u : Fin 1), j = ix2 p u := ⟨j 0, j 1, eq_ix2 j⟩
  show rowBuf V c t (ix2 p u) = rowArr V c (((cfg0.win 1).blk t).view.emb (ix2 p u))
  rw [rowBuf_apply]
  show _ = ∑ q : Fin 4096, arrA0 V c (ix2 ((((cfg0.win 1).blk t).view.emb (ix2 p u)) 0) q)
  refine Finset.sum_congr rfl fun q _ => congrArg (fun r => arrA0 V c (ix2 r q)) (Fin.ext ?_)
  show 512 * t.val + p.val = win0_1.index t (0 : Fin 2) * 512 + 1 * p.val
  omega

/-- An index of the first result array is in point t's block iff each coordinate is in the block's range. -/
theorem mem_blkR (t : Fin cfg0.N) (i : S4096x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

/-- The first result array after the run holds the row sums of A. -/
theorem rowFinal (c : Dev nD) : (dat0 V c).arrAt 1 cfg0.N = rowArr V c :=
  (dat0 V c).arrAt_eq_of_cover 1 (rowArr V c) (fun t _ => flushedR_eq V c t) fun i => by
    have hi0 : (i 0).val < 4096 := (i 0).isLt
    have hi1 : (i 1).val < 1 := (i 1).isLt
    obtain ⟨t, ht⟩ : ∃ t : Fin cfg0.N, t.val = (i 0).val / 512 :=
      ⟨⟨(i 0).val / 512, by rw [show cfg0.N = 8 from N_0]; omega⟩, rfl⟩
    obtain ⟨e0, e1⟩ := indexR t
    refine ⟨t, flush0_1 t, ?_⟩
    rw [mem_blkR]
    intro a
    match a with
    | ⟨0, _⟩ =>
      show win0_1.index t (0 : Fin 2) * 512 ≤ (i 0).val ∧ (i 0).val < win0_1.index t (0 : Fin 2) * 512 + 512
      omega
    | ⟨1, _⟩ =>
      show win0_1.index t (1 : Fin 2) * 1 ≤ (i 1).val ∧ (i 1).val < win0_1.index t (1 : Fin 2) * 1 + 1
      omega

/-- Entry (i, u) of the first result array after the run is the sum of row i of A. -/
theorem row_arr (c : Dev nD) (i : Fin 4096) (u : Fin 1) :
    ((Cert.KernelIdeal.Frame.dat0 (F := Ideal) V c).arrAt 1 cfg0.N : S4096x1.Idx → EReal) (ValueIdx.ix2 i u)
      = Cert.Spec.rowSum (V c main_arg0) i :=
  congrFun (rowFinal V c) (ix2 i u)

/-- The one write-back of the column buffer, after the last point, writes the sums of whole columns. -/
theorem flushedC_eq (c : Dev nD) (t : Fin cfg0.N) (hf : (cfg0.win 2).flush t = true) :
    (dat0 V c).flushed 2 t = ((cfg0.win 2).blk t).view.read (Elt Ideal) (colArr V c) := by
  have h7 : t.val = 7 := by have := (flush0_2 t).mp hf; have := point_lt t; omega
  show (cfg0.win 2).cut (grid0.coords t) ((dat0 V c).after 2 t) = _
  rw [after0_2]
  obtain ⟨e0, e1⟩ := indexC t
  funext j
  obtain ⟨u, k, rfl⟩ : ∃ (u : Fin 1) (k : Fin 4096), j = ix2 u k := ⟨j 0, j 1, eq_ix2 j⟩
  show colBuf V c t.val t.isLt (ix2 u k) = colArr V c (((cfg0.win 2).blk t).view.emb (ix2 u k))
  rw [colBuf_apply]
  have hall : Cert.Sums.prefixBlocks 8 512 (colFam V c k) (t.val + 1) (lt_of_lt_of_eq t.isLt (show cfg0.N = 8 from N_0))
      = ∑ r : Fin (8 * 512), colFam V c k r := by
    rw [← Cert.Sums.prefixBlocks_all]
    congr 1
    omega
  rw [hall]
  show ∑ r : Fin 4096, arrA0 V c (ix2 r k) = ∑ r : Fin 4096, arrA0 V c (ix2 r ((((cfg0.win 2).blk t).view.emb (ix2 u k)) 1))
  refine Finset.sum_congr rfl fun r _ => congrArg (fun k' => arrA0 V c (ix2 r k')) (Fin.ext ?_)
  show k.val = win0_2.index t (1 : Fin 2) * 4096 + 1 * k.val
  omega

/-- An index of the second result array is in point t's block iff each coordinate is in the block's range. -/
theorem mem_blkC (t : Fin cfg0.N) (i : S1x4096.Idx) :
    i ∈ ((cfg0.win 2).blk t).view.set ↔ ∀ a : Fin 2, win0_2.index t a * S1x4096.size a ≤ (i a).val ∧ (i a).val < win0_2.index t a * S1x4096.size a + S1x4096.size a := by
  show i ∈ ((View.whole main_v0_1).slice (win0_2.rect t)).set ↔ _
  rw [View.set_slice_whole, Rect.mem_set_unit]
  exact Iff.rfl

/-- The second result array after the run holds the column sums of A. -/
theorem colFinal (c : Dev nD) : (dat0 V c).arrAt 2 cfg0.N = colArr V c :=
  (dat0 V c).arrAt_eq_of_cover 2 (colArr V c) (flushedC_eq V c) fun i => by
    have hi0 : (i 0).val < 1 := (i 0).isLt
    have hi1 : (i 1).val < 4096 := (i 1).isLt
    obtain ⟨e0, e1⟩ := indexC t0_7
    refine ⟨t0_7, (flush0_2 t0_7).mpr rfl, ?_⟩
    rw [mem_blkC]
    intro a
    match a with
    | ⟨0, _⟩ =>
      show win0_2.index t0_7 (0 : Fin 2) * 1 ≤ (i 0).val ∧ (i 0).val < win0_2.index t0_7 (0 : Fin 2) * 1 + 1
      omega
    | ⟨1, _⟩ =>
      show win0_2.index t0_7 (1 : Fin 2) * 4096 ≤ (i 1).val ∧ (i 1).val < win0_2.index t0_7 (1 : Fin 2) * 4096 + 4096
      omega

/-- Entry (u, k) of the second result array after the run is the sum of column k of A. -/
theorem col_arr (c : Dev nD) (u : Fin 1) (k : Fin 4096) :
    ((Cert.KernelIdeal.Frame.dat0 (F := Ideal) V c).arrAt 2 cfg0.N : S1x4096.Idx → EReal) (ValueIdx.ix2 u k)
      = Cert.Spec.colSum (V c main_arg0) k :=
  congrFun (colFinal V c) (ix2 u k)

end Arrays

end Cert.KernelIdeal.Val

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Val.R1Pay.lean ====
/-
  The three values the second kernel's body stores, read at an entry (p, q) of the [1024, 1024] tile
  over the extended reals.

  • the zero tile: every entry is 0;
  • the accumulation step: the scratch entry plus the sum, over the 1024 contracted coordinates x, of
      ((r(p) + cl(x)) − two · a(p,x)) · a(p,x) · w(x,q),
    where r is the column of row sums, cl the row of column sums, a the block of A and w the block
    of W; narrowing to the half-width format is the identity over the extended reals, and the product
    into the zero accumulator is the plain sum over the contracted coordinate;
  • the closing step: the scratch entry plus the bias row's entry at q.
-/
import proofs.«132442_j58583353917526_1_alg».proof.Proof.Gen.KernelIdeal.Skeleton
import proofs.«132442_j58583353917526_1_alg».proof.Proof.LibTile
import proofs.«132442_j58583353917526_1_alg».proof.Proof.LibPlainProduct
import proofs.«132442_j58583353917526_1_alg».proof.Proof.Val.Spec

noncomputable section

open scoped BigOperators

namespace Cert.KernelIdeal.Val

open Cert.KernelIdeal Cert.KernelIdeal.Gen
open Idealize.ShloMosaic Idealize.ShloMosaic.ValueIdx

/-- The kernel's contraction record is the plain [M, K] by [K, N] one. -/
theorem dot_eq_plain :
    dot_S1024x1024_S1024x1024_S1024x1024_1_0_0_1_n_n = DotDims.plain 1024 1024 1024 := rfl

/-- The zero tile reads 0 at every entry. -/
theorem k1_pay1_apply (p q : Fin 1024) : k1_pay1 (F := Ideal) (ix2 p q) = 0 := by
  unfold k1_pay1
  refine (congrFun (shapeCast_self _ _) (ix2 p q)).trans ?_
  exact Ideal.ofBits_zero_f32

/-- The accumulation step at (p, q): the scratch entry plus the sum over the contracted coordinate of
    the masked entry of the A block times the entry of the W block. -/
theorem k1_pay2_apply (a : Vec Ideal S1024x1024 .f32) (r : Vec Ideal S1024x1 .f32) (cl : Vec Ideal S1x1024 .f32)
    (w : Vec Ideal S1024x1024 .f32) (acc : Vec Ideal S1024x1024 .f32) (p q : Fin 1024) :
    k1_pay2 (F := Ideal) a r cl w acc (ix2 p q)
      = acc (ix2 p q) + ∑ x : Fin 1024,
          (((r (ix2 p (0 : Fin 1)) + cl (ix2 (0 : Fin 1) x)) - Cert.Spec.two * a (ix2 p x)) * a (ix2 p x)) * w (ix2 x q) := by
  unfold k1_pay2
  refine (congrFun (shapeCast_self _ _) (ix2 p q)).trans ?_
  refine (addf_apply _ _ _).trans ?_
  refine congrArg (acc (ix2 p q) + ·) ?_
  rw [dot_eq_plain]
  refine (Cert.PlainProduct.matmul_zero_apply none _ _ p q).trans ?_
  refine Finset.sum_congr rfl fun x _ => ?_
  refine congrArg₂ (· * ·) ?_ rfl
  refine (truncf_apply (φ := .f32) (ψ := .bf16) _ bitsLt_bf16_f32 (ix2 p x)).trans ?_
  refine (mulf_apply _ _ _).trans ?_
  refine congrArg₂ (· * ·) ?_ rfl
  refine (subf_apply _ _ _).trans ?_
  refine congrArg₂ (· - ·) ?_ ?_
  · refine (addf_apply _ _ _).trans ?_
    refine congrArg₂ (· + ·) ?_ ?_
    · exact (Cert.Tile.broadcastTo_a1_ab_apply _ _ p x).trans (congrFun (shapeCast_self r _) (ix2 p (0 : Fin 1)))
    · exact (broadcastTo_1b_ab_apply _ _ p x).trans (congrFun (shapeCast_self cl _) (ix2 (0 : Fin 1) x))
  · exact mulf_apply _ _ _

/-- The closing step at (p, q): the scratch entry plus the bias row's entry at q. -/
theorem k1_pay3_apply (acc : Vec Ideal S1024x1024 .f32) (bias : Vec Ideal S1x1024 .f32) (p q : Fin 1024) :
    k1_pay3 (F := Ideal) acc bias (ix2 p q) = acc (ix2 p q) + bias (ix2 (0 : Fin 1) q) := by
  unfold k1_pay3
  refine (addf_apply _ _ _).trans ?_
  refine congrArg (acc (ix2 p q) + ·) ?_
  exact (broadcastTo_1b_ab_apply _ _ p q).trans (congrFun (shapeCast_self bias _) (ix2 (0 : Fin 1) q))

end Cert.KernelIdeal.Val

end
-- ==== Proof.Val.R1Blocks.lean ====
/-
  The blocks the second kernel reads at a grid point, entry by entry, as entries of the whole arrays.

  Grid point n (0 ≤ n < 64) has coordinates (I, J, K) = (n / 16, n / 4 mod 4, n mod 4). At that point
    the A block is rows 1024·I …, columns 1024·K … of A;
    the row-sum block is rows 1024·I … of the [4096, 1] column of row sums;
    the column-sum block is columns 1024·K … of the [1, 4096] row of column sums;
    the W block is rows 1024·K …, columns 1024·J … of W;
    the bias block is columns 1024·J … of the [1, 4096] bias row;
  and the output block is rows 1024·I …, columns 1024·J … of the result.
-/
import proofs.«132442_j58583353917526_1_alg».proof.Proof.KI.R1Runs
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-! ## The arrays and the blocks, at their literal types -/

/-- A, as the kernel finds it. -/
abbrev arrA (c : Dev nD) : Vec F S4096x4096 .f32 := V c main_arg0
/-- The [4096, 1] column of row sums. -/
abbrev arrR (c : Dev nD) : Vec F S4096x1 .f32 := V c main_v0_0
/-- The [1, 4096] row of column sums. -/
abbrev arrC (c : Dev nD) : Vec F S1x4096 .f32 := V c main_v0_1
/-- W. -/
abbrev arrW (c : Dev nD) : Vec F S4096x4096 .f32 := V c main_arg1
/-- The [1, 4096] bias row. -/
abbrev arrB (c : Dev nD) : Vec F S1x4096 .f32 := V c main_v1

/-- The A block at point t. -/
abbrev blkA (c : Dev nD) (t : Fin cfg1.N) : Vec F S1024x1024 .f32 := iblk1 V c 0 t
/-- The row-sum block at point t. -/
abbrev blkR (c : Dev nD) (t : Fin cfg1.N) : Vec F S1024x1 .f32 := iblk1 V c 1 t
/-- The column-sum block at point t. -/
abbrev blkC (c : Dev nD) (t : Fin cfg1.N) : Vec F S1x1024 .f32 := iblk1 V c 2 t
/-- The W block at point t. -/
abbrev blkW (c : Dev nD) (t : Fin cfg1.N) : Vec F S1024x1024 .f32 := iblk1 V c 3 t
/-- The bias block at point t. -/
abbrev blkB (c : Dev nD) (t : Fin cfg1.N) : Vec F S1x1024 .f32 := iblk1 V c 4 t

/-! ## Rows, columns and inner indices of a point -/

/-- Row p of the row block of point n: 1024·(n / 16) + p. -/
def rowOf (n : ℕ) (hn : n < cfg1.N) (p : Fin 1024) : Fin 4096 :=
  ⟨1024 * (n / 16) + p.val, by have h : n < 64 := lt_of_lt_of_eq hn N_1; have := p.isLt; omega⟩
/-- Column q of the column block of point n: 1024·(n / 4 mod 4) + q. -/
def colOf (n : ℕ) (q : Fin 1024) : Fin 4096 :=
  ⟨1024 * (n / 4 % 4) + q.val, by have := q.isLt; omega⟩
/-- Inner index x of the inner block of point n: 1024·(n mod 4) + x. -/
def innOf (n : ℕ) (x : Fin 1024) : Fin 4096 :=
  ⟨1024 * (n % 4) + x.val, by have := x.isLt; omega⟩

/-- The six windows' index maps over the grid: their block indices at point t. -/
theorem idx_facts : ∀ t : Fin cfg1.N,
    win1_0.index t (0 : Fin 2) = t.val / 16 ∧ win1_0.index t (1 : Fin 2) = t.val % 4
    ∧ win1_1.index t (0 : Fin 2) = t.val / 16 ∧ win1_1.index t (1 : Fin 2) = 0
    ∧ win1_2.index t (0 : Fin 2) = 0 ∧ win1_2.index t (1 : Fin 2) = t.val % 4
    ∧ win1_3.index t (0 : Fin 2) = t.val % 4 ∧ win1_3.index t (1 : Fin 2) = t.val / 4 % 4
    ∧ win1_4.index t (0 : Fin 2) = 0 ∧ win1_4.index t (1 : Fin 2) = t.val / 4 % 4
    ∧ win1_5.index t (0 : Fin 2) = t.val / 16 ∧ win1_5.index t (1 : Fin 2) = t.val / 4 % 4 :=
  (by decide +kernel : ∀ t : Fin grid1.N, _)

/-! ## The blocks entry by entry -/

/-- The A block at (p, x) is A at (row p of the point, inner index x of the point). -/
theorem blkA_apply (c : Dev nD) (t : Fin cfg1.N) (p x : Fin 1024) :
    blkA V c t (ix2 p x) = arrA V c (ix2 (rowOf t.val t.isLt p) (innOf t.val x)) := by
  obtain ⟨e0, e1, -⟩ := idx_facts t
  show iblk1 V c 0 t (ix2 p x) = _
  unfold iblk1
  rw [View.read_apply]
  show V c main_arg0 _ = V c main_arg0 _
  congr 1
  funext a
  apply Fin.ext
  match a with
  | ⟨0, _⟩ => show win1_0.index t (0 : Fin 2) * 1024 + 1 * p.val = 1024 * (t.val / 16) + p.val; rw [e0]; omega
  | ⟨1, _⟩ => show win1_0.index t (1 : Fin 2) * 1024 + 1 * x.val = 1024 * (t.val % 4) + x.val; rw [e1]; omega

/-- The row-sum block at (p, 0) is the column of row sums at row p of the point. -/
theorem blkR_apply (c : Dev nD) (t : Fin cfg1.N) (p : Fin 1024) :
    blkR V c t (ix2 p (0 : Fin 1)) = arrR V c (ix2 (rowOf t.val t.isLt p) (0 : Fin 1)) := by
  obtain ⟨-, -, e0, e1, -⟩ := idx_facts t
  show iblk1 V c 1 t (ix2 p (0 : Fin 1)) = _
  unfold iblk1
  rw [View.read_apply]
  show V c main_v0_0 _ = V c main_v0_0 _
  congr 1
  funext a
  apply Fin.ext
  match a with
  | ⟨0, _⟩ => show win1_1.index t (0 : Fin 2) * 1024 + 1 * p.val = 1024 * (t.val / 16) + p.val; rw [e0]; omega
  | ⟨1, _⟩ => show win1_1.index t (1 : Fin 2) * 1 + 1 * 0 = 0; rw [e1]

/-- The column-sum block at (0, x) is the row of column sums at inner index x of the point. -/
theorem blkC_apply (c : Dev nD) (t : Fin cfg1.N) (x : Fin 1024) :
    blkC V c t (ix2 (0 : Fin 1) x) = arrC V c (ix2 (0 : Fin 1) (innOf t.val x)) := by
  obtain ⟨-, -, -, -, e0, e1, -⟩ := idx_facts t
  show iblk1 V c 2 t (ix2 (0 : Fin 1) x) = _
  unfold iblk1
  rw [View.read_apply]
  show V c main_v0_1 _ = V c main_v0_1 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * x.val = 1024 * (t.val % 4) + x.val; rw [e1]; omega

/-- The W block at (x, q) is W at (inner index x of the point, column q of the point). -/
theorem blkW_apply (c : Dev nD) (t : Fin cfg1.N) (x q : Fin 1024) :
    blkW V c t (ix2 x q) = arrW V c (ix2 (innOf t.val x) (colOf t.val q)) := by
  obtain ⟨-, -, -, -, -, -, e0, e1, -⟩ := idx_facts t
  show iblk1 V c 3 t (ix2 x q) = _
  unfold iblk1
  rw [View.read_apply]
  show V c main_arg1 _ = V c main_arg1 _
  congr 1
  funext a
  apply Fin.ext
  match a with
  | ⟨0, _⟩ => show win1_3.index t (0 : Fin 2) * 1024 + 1 * x.val = 1024 * (t.val % 4) + x.val; rw [e0]; omega
  | ⟨1, _⟩ => show win1_3.index t (1 : Fin 2) * 1024 + 1 * q.val = 1024 * (t.val / 4 % 4) + q.val; rw [e1]; omega

/-- The bias block at (0, q) is the bias row at column q of the point. -/
theorem blkB_apply (c : Dev nD) (t : Fin cfg1.N) (q : Fin 1024) :
    blkB V c t (ix2 (0 : Fin 1) q) = arrB V c (ix2 (0 : Fin 1) (colOf t.val q)) := by
  obtain ⟨-, -, -, -, -, -, -, -, e0, e1, -⟩ := idx_facts t
  show iblk1 V c 4 t (ix2 (0 : Fin 1) q) = _
  unfold iblk1
  rw [View.read_apply]
  show V c main_v1 _ = V c main_v1 _
  congr 1
  funext a
  apply Fin.ext
  match a with
  | ⟨0, _⟩ => show win1_4.index t (0 : Fin 2) * 1 + 1 * 0 = 0; rw [e0]
  | ⟨1, _⟩ => show win1_4.index t (1 : Fin 2) * 1024 + 1 * q.val = 1024 * (t.val / 4 % 4) + q.val; rw [e1]; omega

end Cert.KernelIdeal.Val

end
-- ==== Proof.Val.R1Pieces.lean ====
/-
  What each way of running the second kernel's body leaves in the accumulator and in the output buffer, as
  the body's stored values of the blocks it loaded:
    at a first inner block the accumulator ends as the accumulation step over the zero tile;
    at a middle or a last inner block it ends as the accumulation step over what it held;
    at a last inner block the output buffer ends as the closing step (accumulator + bias row) over the
    accumulator just updated.
-/
import proofs.«132442_j58583353917526_1_alg».proof.Proof.KI.R1Frame
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.Tactic Idealize.SL.Sem
open Idealize.ShloMosaic.Pipeline (Dat Cfg Window)

variable {F : FTy → Type} [FloatOps F]

/-- The zero offsets, as a constant function. -/
theorem hz : (![0, 0] : Fin 2 → Nat) = fun _ => 0 := funext fun a => by fin_cases a <;> rfl

/-- First inner block: the accumulator is zero-filled, then the accumulation step is stored over it. -/
theorem sout_A (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x1024 .f32) (x4 : Vec F S1x1024 .f32) :
    sout1_A_0 c i arg3 harg3 arg4 harg4 arg5 harg5 arg6 harg6 arg7 harg7 arg8 harg8 arg9 harg9 hc0 hc1 x0 x1 x2 x3 x4 = k1_pay2 x0 x1 x2 x3 (k1_pay1 (F := F)) := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x1024) hz]
  simp only [View.readAt_eq_ld, harg3.read_unread, harg4.read_unread, harg5.read_unread, harg6.read_unread, harg7.read_unread, harg9.read_unread, View.ld_unit_zero (S := S1024x1024) hz, View.ld_unit_zero (S := S1024x1) hz, View.ld_unit_zero (S := S1x1024) hz, View.readCov_unit_zero (S := S1024x1024) _ hz]

/-- Middle inner block: the accumulation step over what the accumulator held. -/
theorem sout_B (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) :
    sout1_B_0 c i arg3 harg3 arg4 harg4 arg5 harg5 arg6 harg6 arg7 harg7 arg8 harg8 arg9 harg9 hc0 hc1 x0 x1 x2 x3 x4 xs0 = k1_pay2 x0 x1 x2 x3 xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero hz]
  simp only [View.readAt_eq_ld, harg3.read_unread, harg4.read_unread, harg5.read_unread, harg6.read_unread, harg7.read_unread, harg9.read_unread, View.ld_unit_zero (S := S1024x1024) hz, View.ld_unit_zero (S := S1024x1) hz, View.ld_unit_zero (S := S1x1024) hz, View.readCov_unit_zero (S := S1024x1024) _ hz]

/-- Last inner block, the accumulator: the accumulation step over what it held. -/
theorem sout_C (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) :
    sout1_C_0 c i arg3 harg3 arg4 harg4 arg5 harg5 arg6 harg6 arg7 harg7 arg8 harg8 arg9 harg9 hc0 hc1 x0 x1 x2 x3 x4 xs0 = k1_pay2 x0 x1 x2 x3 xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz]
  simp only [View.readAt_eq_ld, harg3.read_unread, harg4.read_unread, harg5.read_unread, harg6.read_unread, harg7.read_unread, harg9.read_unread, View.ld_unit_zero (S := S1024x1024) hz, View.ld_unit_zero (S := S1024x1) hz, View.ld_unit_zero (S := S1x1024) hz, View.readCov_unit_zero (S := S1024x1024) _ hz]

/-- Last inner block, the output buffer: the closing step over the accumulator just updated. -/
theorem out_C (c : Dev nD) (i : grid1.Coords) (arg3 : Memref sig .tc .vmem S1024x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x1024 .f32) (x4 : Vec F S1x1024 .f32) (xs0 : Vec F S1024x1024 .f32) :
    out1_C_5 c i arg3 harg3 arg4 harg4 arg5 harg5 arg6 harg6 arg7 harg7 arg8 harg8 arg9 harg9 hc0 hc1 x0 x1 x2 x3 x4 xs0 = k1_pay3 (k1_pay2 x0 x1 x2 x3 xs0) x4 := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz]
  simp only [View.readAt_eq_ld, harg3.read_unread, harg4.read_unread, harg5.read_unread, harg6.read_unread, harg7.read_unread, harg9.read_unread, View.ld_unit_zero (S := S1024x1024) hz, View.ld_unit_zero (S := S1024x1) hz, View.ld_unit_zero (S := S1x1024) hz, View.readCov_unit_zero (S := S1024x1024) _ hz]

end Cert.KernelIdeal.Val

end
-- ==== Proof.Val.R1Cover.lean ====
/-
  The second kernel's output window covers the result array.

  The output block of grid point n (0 ≤ n < 64) is rows 1024·(n / 16) …, columns 1024·(n / 4 mod 4) …
  of the [4096, 4096] result, and it is written back at the points with n mod 4 = 3 only. Entry (i, j)
  lies in the block of the point 16·(i / 1024) + 4·(j / 1024) + 3, which is such a point; so every
  entry of the result is in the block of some point that writes back.
-/
import proofs.«132442_j58583353917526_1_alg».proof.Proof.KI.R1Frame
import proofs.«132442_j58583353917526_1_alg».proof.Proof.Val.R1Blocks
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.ValueIdx
open Idealize.ShloMosaic.Pipeline (Dat Cfg Window)

/-! ## The output window's blocks -/

/-- The output window's block indices over the grid: row block n / 16, column block n / 4 mod 4. -/
theorem idx5_facts : ∀ t : Fin cfg1.N,
    win1_5.index t (0 : Fin 2) = t.val / 16 ∧ win1_5.index t (1 : Fin 2) = t.val / 4 % 4 :=
  fun t => by
    obtain ⟨-, -, -, -, -, -, -, -, -, -, e0, e1⟩ := idx_facts t
    exact ⟨e0, e1⟩

/-- An entry of the result is in point t's output block iff each coordinate is in the block's range. -/
theorem mem_blk5 (t : Fin cfg1.N) (idx : S4096x4096.Idx) :
    idx ∈ ((cfg1.win 5).blk t).view.set ↔ ∀ a : Fin 2, win1_5.index t a * S1024x1024.size a ≤ (idx a).val ∧ (idx a).val < win1_5.index t a * S1024x1024.size a + S1024x1024.size a := by
  show idx ∈ ((View.whole main_v2).slice (win1_5.rect t)).set ↔ _
  rw [View.set_slice_whole, Rect.mem_set_unit]
  exact Iff.rfl

/-! ## The point that writes back a given entry -/

/-- The point whose block holds entry (i, j) and which writes back: 16·(i / 1024) + 4·(j / 1024) + 3. -/
def ptOf (i j : Fin 4096) : Fin cfg1.N :=
  ⟨16 * (i.val / 1024) + 4 * (j.val / 1024) + 3,
    lt_of_lt_of_eq (by have := i.isLt; have := j.isLt; omega : 16 * (i.val / 1024) + 4 * (j.val / 1024) + 3 < 64) N_1.symm⟩

theorem ptOf_val (i j : Fin 4096) : (ptOf i j).val = 16 * (i.val / 1024) + 4 * (j.val / 1024) + 3 := rfl

/-- That point writes its output block back. -/
theorem flush_ptOf (i j : Fin 4096) : (cfg1.win 5).flush (ptOf i j) = true :=
  (flush1_5 (ptOf i j)).mpr (by rw [ptOf_val]; omega)

/-- Entry (i, j) is in that point's output block. -/
theorem mem_ptOf (i j : Fin 4096) : ix2 i j ∈ ((cfg1.win 5).blk (ptOf i j)).view.set := by
  rw [mem_blk5]
  obtain ⟨e0, e1⟩ := idx5_facts (ptOf i j)
  have hi := i.isLt
  have hj := j.isLt
  intro a
  match a with
  | ⟨0, _⟩ =>
    show win1_5.index (ptOf i j) (0 : Fin 2) * 1024 ≤ i.val ∧ i.val < win1_5.index (ptOf i j) (0 : Fin 2) * 1024 + 1024
    rw [e0, ptOf_val]; omega
  | ⟨1, _⟩ =>
    show win1_5.index (ptOf i j) (1 : Fin 2) * 1024 ≤ j.val ∧ j.val < win1_5.index (ptOf i j) (1 : Fin 2) * 1024 + 1024
    rw [e1, ptOf_val]; omega

/-- Every entry of the result is in the output block of some point that writes back. -/
theorem cover5 : ∀ idx : S4096x4096.Idx,
    ∃ t : Fin cfg1.N, (cfg1.win 5).flush t = true ∧ idx ∈ ((cfg1.win 5).blk t).view.set := fun idx => by
  obtain ⟨i, j, rfl⟩ : ∃ (i j : Fin 4096), idx = ix2 i j := ⟨idx 0, idx 1, eq_ix2 idx⟩
  exact ⟨ptOf i j, flush_ptOf i j, mem_ptOf i j⟩

end Cert.KernelIdeal.Val

end
-- ==== Proof.Val.R1Val.lean ====
/-
  The values the second kernel leaves in its result array, over the extended reals.

  Write, for an entry (i, j) of the result and an inner index k,
    term(i, j, k) = ((R(i) + C(k)) − two · A(i,k)) · A(i,k) · W(k,j),
  with R the column of row sums and C the row of column sums. Grid point 16·I + 4·J + K works on row
  block I, column block J and inner block K. Within the four points of one (I, J) the accumulator at
  (p, q) holds, after inner block K, the sum of term(1024·I + p, 1024·J + q, ·) over the inner blocks
  0 … K: the first point starts from the zero tile, each later point adds its block's 1024 terms to what
  the point before left. After inner block 3 this is the whole sum over the 4096 inner indices, and the
  output block, stored and written back at that point only, is that sum plus the bias entry of column
  1024·J + q. The output blocks of the sixteen (I, J) tile the result array.
-/
import proofs.«132442_j58583353917526_1_alg».proof.Proof.KI.R1Frame
import proofs.«132442_j58583353917526_1_alg».proof.Proof.Val.R1Pay
import proofs.«132442_j58583353917526_1_alg».proof.Proof.Val.R1Blocks
import proofs.«132442_j58583353917526_1_alg».proof.Proof.Val.R1Pieces
import proofs.«132442_j58583353917526_1_alg».proof.Proof.Val.R1Cover
import proofs.«132442_j58583353917526_1_alg».proof.Proof.LibSums
import Idealize.ShloMosaic.Lib.Pipeline.Value

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.SL.Sem
open Idealize.ShloMosaic.ValueIdx
open Idealize.ShloMosaic.Pipeline (Dat Cfg Window)

/-! ## The accumulator and the output buffer after a point, as stored values of the point's blocks -/

section AnyValues

variable {F : FTy → Type} [FloatOps F]
variable (V : (c : Dev nD) → (b : Ref sig .tc) → Buf (Elt F) ((c : Thread nD τ).loc b))

/-- After a first inner block the accumulator is the accumulation step over the zero tile. -/
theorem scr_first (c : Dev nD) (t : Fin cfg1.N) (h0 : t.val % 4 = 0) :
    (outsAt1 V c t.val t.isLt).2
      = k1_pay2 (blkA V c t) (blkR V c t) (blkC V c t) (blkW V c t) (k1_pay1 (F := F)) := by
  have h1 : ¬t.val % 4 = 3 := by omega
  rw [outsAt1_A V c t h0 h1]
  dsimp only
  exact sout_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- After any later inner block the accumulator is the accumulation step over what the point before left. -/
theorem scr_next (c : Dev nD) (t : Fin cfg1.N) (h0 : ¬t.val % 4 = 0) :
    (outsAt1 V c t.val t.isLt).2
      = k1_pay2 (blkA V c t) (blkR V c t) (blkC V c t) (blkW V c t) (outsAt1 V c (t.val - 1) (Nat.lt_of_le_of_lt (Nat.sub_le _ _) t.isLt)).2 := by
  by_cases h1 : t.val % 4 = 3
  · rw [outsAt1_C V c t h0 h1]
    dsimp only
    exact sout_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2
  · rw [outsAt1_B V c t h0 h1]
    dsimp only
    exact sout_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- After a last inner block the output buffer is the closing step over the accumulator as that point leaves it. -/
theorem out_last (c : Dev nD) (t : Fin cfg1.N) (h1 : t.val % 4 = 3) :
    (outsAt1 V c t.val t.isLt).1 = k1_pay3 (outsAt1 V c t.val t.isLt).2 (blkB V c t) := by
  have h0 : ¬t.val % 4 = 0 := by omega
  refine Eq.trans ?_ (congrArg (fun s => k1_pay3 s (blkB V c t)) (scr_next V c t h0).symm)
  rw [outsAt1_C V c t h0 h1]
  dsimp only
  exact out_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2

end AnyValues

/-! ## Over the extended reals -/

section Reals

variable (V : (c : Dev nD) → (b : Ref sig .tc) → Buf (Elt Ideal) ((c : Thread nD τ).loc b))

/-- The term of entry (i, j) at inner index k: ((R(i) + C(k)) − two · A(i,k)) · A(i,k) · W(k,j). -/
def term (R : S4096x1.Idx → EReal) (C : S1x4096.Idx → EReal) (A W : S4096x4096.Idx → EReal) (i j k : Fin 4096) : EReal :=
  (((R (ix2 i (0 : Fin 1)) + C (ix2 (0 : Fin 1) k)) - Cert.Spec.two * A (ix2 i k)) * A (ix2 i k)) * W (ix2 k j)

/-- Position p of block I (I < 4) of an axis of 4096: 1024·I + p. -/
@[reducible] def ent (I : ℕ) (hI : I < 4) (p : Fin 1024) : Fin 4096 := ⟨1024 * I + p.val, by have := p.isLt; omega⟩

/-- The last inner block is one of the four. -/
theorem h34 : 3 < 4 := by decide

/-- The grid point of row block I, column block J, inner block K: 16·I + 4·J + K. -/
def ptN (I J : Fin 4) (K : ℕ) (hK : K < 4) : Fin cfg1.N :=
  ⟨16 * I.val + 4 * J.val + K, by have := I.isLt; have := J.isLt; rw [show cfg1.N = 64 from N_1]; omega⟩

theorem ptN_val (I J : Fin 4) (K : ℕ) (hK : K < 4) : (ptN I J K hK).val = 16 * I.val + 4 * J.val + K := rfl

/-- The accumulation step at point (I, J, K), at (p, q): what the accumulator held there plus the 1024 terms of
    inner block K of entry (1024·I + p, 1024·J + q). -/
theorem step_apply (c : Dev nD) (I J : Fin 4) (K : ℕ) (hK : K < 4) (acc : Vec Ideal S1024x1024 .f32) (p q : Fin 1024) :
    k1_pay2 (F := Ideal) (blkA V c (ptN I J K hK)) (blkR V c (ptN I J K hK)) (blkC V c (ptN I J K hK)) (blkW V c (ptN I J K hK)) acc (ix2 p q)
      = acc (ix2 p q) + ∑ x : Fin 1024, term (arrR V c) (arrC V c) (arrA V c) (arrW V c) (ent I.val I.isLt p) (ent J.val J.isLt q) (ent K hK x) := by
  have hI := I.isLt
  have hJ := J.isLt
  have eI : rowOf (ptN I J K hK).val (ptN I J K hK).isLt p = ent I.val I.isLt p :=
    Fin.ext (by show 1024 * ((16 * I.val + 4 * J.val + K) / 16) + p.val = 1024 * I.val + p.val; omega)
  have eJ : colOf (ptN I J K hK).val q = ent J.val J.isLt q :=
    Fin.ext (by show 1024 * ((16 * I.val + 4 * J.val + K) / 4 % 4) + q.val = 1024 * J.val + q.val; omega)
  have eK : ∀ x, innOf (ptN I J K hK).val x = ent K hK x := fun x =>
    Fin.ext (by show 1024 * ((16 * I.val + 4 * J.val + K) % 4) + x.val = 1024 * K + x.val; omega)
  refine (k1_pay2_apply _ _ _ _ _ p q).trans ?_
  refine congrArg (acc (ix2 p q) + ·) (Finset.sum_congr rfl fun x _ => ?_)
  rw [blkA_apply, blkR_apply, blkC_apply, blkW_apply, eI, eJ, eK]
  rfl

/-- Within the four points of (I, J): after inner block K the accumulator at (p, q) is the sum of the terms of
    entry (1024·I + p, 1024·J + q) over the inner blocks 0 … K. -/
theorem scratch_eq (c : Dev nD) (I J : Fin 4) (p q : Fin 1024) : ∀ (K : ℕ) (hK : K < 4),
    ((outsAt1 (F := Ideal) V c (ptN I J K hK).val (ptN I J K hK).isLt).2 : Vec Ideal S1024x1024 .f32) (ix2 p q)
      = Cert.Sums.prefixBlocks 4 1024 (term (arrR V c) (arrC V c) (arrA V c) (arrW V c) (ent I.val I.isLt p) (ent J.val J.isLt q)) (K + 1) hK
  | 0, hK => by
    have h0 : (ptN I J 0 hK).val % 4 = 0 := by show (16 * I.val + 4 * J.val + 0) % 4 = 0; omega
    refine (congrFun (scr_first V c (ptN I J 0 hK) h0) (ix2 p q)).trans ?_
    refine (step_apply V c I J 0 hK _ p q).trans ?_
    rw [Cert.Sums.prefixBlocks_succ 4 1024 _ 0 hK, Cert.Sums.prefixBlocks_zero, k1_pay1_apply]
  | K + 1, hK => by
    have h0 : ¬(ptN I J (K + 1) hK).val % 4 = 0 := by show ¬(16 * I.val + 4 * J.val + (K + 1)) % 4 = 0; omega
    refine (congrFun (scr_next V c (ptN I J (K + 1) hK) h0) (ix2 p q)).trans ?_
    refine (step_apply V c I J (K + 1) hK _ p q).trans ?_
    rw [Cert.Sums.prefixBlocks_succ 4 1024 _ (K + 1) hK]
    refine congrArg₂ (· + ·) ?_ rfl
    exact scratch_eq c I J p q K (Nat.lt_of_succ_lt hK)

/-- After the last inner block of (I, J) the output buffer at (p, q) is the whole sum over the 4096 inner indices
    of the terms of entry (1024·I + p, 1024·J + q), plus the bias entry of column 1024·J + q. -/
theorem out_eq (c : Dev nD) (I J : Fin 4) (p q : Fin 1024) :
    ((outsAt1 (F := Ideal) V c (ptN I J 3 h34).val (ptN I J 3 h34).isLt).1 : Vec Ideal S1024x1024 .f32) (ix2 p q)
      = (∑ k : Fin 4096, term (arrR V c) (arrC V c) (arrA V c) (arrW V c) (ent I.val I.isLt p) (ent J.val J.isLt q) k)
        + arrB V c (ix2 (0 : Fin 1) (ent J.val J.isLt q)) := by
  have hI := I.isLt
  have hJ := J.isLt
  have h1 : (ptN I J 3 h34).val % 4 = 3 := by show (16 * I.val + 4 * J.val + 3) % 4 = 3; omega
  have eJ : colOf (ptN I J 3 h34).val q = ent J.val J.isLt q :=
    Fin.ext (by show 1024 * ((16 * I.val + 4 * J.val + 3) / 4 % 4) + q.val = 1024 * J.val + q.val; omega)
  refine (congrFun (out_last V c (ptN I J 3 h34) h1) (ix2 p q)).trans ?_
  refine (k1_pay3_apply _ _ p q).trans ?_
  refine congrArg₂ (· + ·) ?_ ?_
  · refine (scratch_eq V c I J p q 3 h34).trans ?_
    exact Cert.Sums.prefixBlocks_all 4 1024 _
  · rw [blkB_apply, eJ]

end Reals

/-! ## The result array -/

section Result

variable (V : (c : Dev nD) → (b : Ref sig .tc) → Buf (Elt Ideal) ((c : Thread nD τ).loc b))

/-- The result array: entry (i, j) is the sum over the 4096 inner indices of its terms, plus the bias entry of
    column j. -/
def Gout (R : S4096x1.Idx → EReal) (C : S1x4096.Idx → EReal) (A W : S4096x4096.Idx → EReal) (B : S1x4096.Idx → EReal) :
    S4096x4096.Idx → EReal :=
  fun idx => (∑ k : Fin 4096, term R C A W (idx 0) (idx 1) k) + B (ix2 (0 : Fin 1) (idx 1))

/-- The output buffer after the last inner block of (I, J), as one function of the position in the block. -/
theorem outblk_eq (c : Dev nD) (I J : Fin 4) :
    ((outsAt1 (F := Ideal) V c (ptN I J 3 h34).val (ptN I J 3 h34).isLt).1 : Vec Ideal S1024x1024 .f32)
      = fun y => Gout (arrR V c) (arrC V c) (arrA V c) (arrW V c) (arrB V c) (ix2 (ent I.val I.isLt (y 0)) (ent J.val J.isLt (y 1))) := by
  funext y
  obtain ⟨p, q, rfl⟩ : ∃ (p q : Fin 1024), y = ix2 p q := ⟨y 0, y 1, eq_ix2 y⟩
  exact out_eq V c I J p q

/-- What a writing-back point writes back is its block of the result array. -/
theorem flushed_eq (c : Dev nD) (t : Fin cfg1.N) (hf : (cfg1.win 5).flush t = true) :
    (dat1 V c).flushed 5 t
      = ((cfg1.win 5).blk t).view.read (Elt Ideal) (Gout (arrR V c) (arrC V c) (arrA V c) (arrW V c) (arrB V c)) := by
  have h3 : t.val % 4 = 3 := (flush1_5 t).mp hf
  have hN : t.val < 64 := lt_of_lt_of_eq t.isLt N_1
  obtain ⟨I, J, rfl⟩ : ∃ I J : Fin 4, t = ptN I J 3 h34 :=
    ⟨⟨t.val / 16, by omega⟩, ⟨t.val / 4 % 4, by omega⟩,
      Fin.ext (by show t.val = 16 * (t.val / 16) + 4 * (t.val / 4 % 4) + 3; omega)⟩
  have hI := I.isLt
  have hJ := J.isLt
  obtain ⟨-, -, -, -, -, -, -, -, -, -, e0, e1⟩ := idx_facts (ptN I J 3 h34)
  show (cfg1.win 5).cut (grid1.coords (ptN I J 3 h34)) ((dat1 V c).after 5 (ptN I J 3 h34)) = _
  rw [after1_5, outblk_eq]
  funext y
  show Gout (arrR V c) (arrC V c) (arrA V c) (arrW V c) (arrB V c) (ix2 (ent I.val I.isLt (y 0)) (ent J.val J.isLt (y 1)))
    = Gout (arrR V c) (arrC V c) (arrA V c) (arrW V c) (arrB V c) (((cfg1.win 5).blk (ptN I J 3 h34)).view.emb y)
  congr 1
  funext a
  apply Fin.ext
  match a with
  | ⟨0, _⟩ =>
    show 1024 * I.val + (y 0).val = win1_5.index (ptN I J 3 h34) (0 : Fin 2) * 1024 + 1 * (y 0).val
    rw [e0, ptN_val]; omega
  | ⟨1, _⟩ =>
    show 1024 * J.val + (y 1).val = win1_5.index (ptN I J 3 h34) (1 : Fin 2) * 1024 + 1 * (y 1).val
    rw [e1, ptN_val]; omega

/-- The result array after the run. -/
theorem final_arr (c : Dev nD) :
    (dat1 V c).arrAt 5 cfg1.N = Gout (arrR V c) (arrC V c) (arrA V c) (arrW V c) (arrB V c) :=
  (dat1 V c).arrAt_eq_of_cover 5 (Gout (arrR V c) (arrC V c) (arrA V c) (arrW V c) (arrB V c)) (flushed_eq V c) cover5

/-- The result array entry by entry: at (i, j), the sum over the inner index k of
    ((R(i) + C(k)) − two · A(i,k)) · A(i,k) · W(k,j), plus the bias entry B(j). -/
theorem out_arr (V : (c : Dev nD) → (b : Ref sig .tc) → Buf (Elt Ideal) ((c : Thread nD τ).loc b)) (c : Dev nD)
    (R : S4096x1.Idx → EReal) (C : S1x4096.Idx → EReal) (A W : S4096x4096.Idx → EReal) (B : S1x4096.Idx → EReal)
    (hR : V c main_v0_0 = R) (hC : V c main_v0_1 = C) (hA : V c main_arg0 = A) (hW : V c main_arg1 = W) (hB : V c main_v1 = B) (i j : Fin 4096) :
    ((Cert.KernelIdeal.Frame.dat1 (F := Ideal) V c).arrAt 5 cfg1.N : S4096x4096.Idx → EReal) (ValueIdx.ix2 i j)
      = (∑ k : Fin 4096, (((R (ValueIdx.ix2 i 0) + C (ValueIdx.ix2 0 k)) - Cert.Spec.two * A (ValueIdx.ix2 i k)) * A (ValueIdx.ix2 i k)) * W (ValueIdx.ix2 k j)) + B (ValueIdx.ix2 0 j) := by
  subst hR hC hA hW hB
  exact congrFun (final_arr V c) (ix2 i j)

end Result

end Cert.KernelIdeal.Val

end
-- ==== Proof.Val.Bridge.lean ====
/-
  From the second kernel's output array to the specification's G.

  The second kernel's region is entered with: A and W as launched (the first region and the reshape
  write neither), the first kernel's two result arrays (the row sums as a [4096, 1] column, the
  column sums as a [1, 4096] row), and b reshaped into a [1, 4096] row. Given, for any contents at
  entry, what the first kernel's results hold (row sums and column sums of its A) and what the second
  kernel's output holds (Σ_k ((r(i) + s(k)) − two · A(i,k)) · A(i,k) · W(k,j), plus the row b'(0,j),
  over its five input arrays), substituting the entry contents gives
    (Σ_k mask A i k · W(k,j)) + b(j),
  which is G A W b (i,j).
-/
import proofs.«132442_j58583353917526_1_alg».proof.Proof.KI.Run
import proofs.«132442_j58583353917526_1_alg».proof.Proof.Val.Spec
import Idealize.ShloMosaic.Lib.ValueLayout

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The second region's entry contents -/

/-- A at the second region's entry is A as launched. -/
theorem V3_arg0 (c : Dev nD) : V3 m ρ c main_arg0 = m ((c : Thread nD τ).loc main_arg0) :=
  calc W3 m ρ c (Proc.devRef .tc main_arg0)
    _ = W2 m ρ c (Proc.devRef .tc main_arg0) := W3_of m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

/-- W at the second region's entry is W as launched. -/
theorem V3_arg1 (c : Dev nD) : V3 m ρ c main_arg1 = m ((c : Thread nD τ).loc main_arg1) :=
  calc W3 m ρ c (Proc.devRef .tc main_arg1)
    _ = W2 m ρ c (Proc.devRef .tc main_arg1) := W3_of m ρ c main_arg1 (by decide)
    _ = W0 m ρ c (Proc.devRef .tc main_arg1) := W2_of_ne m ρ c main_arg1 (by decide)
    _ = m ((c : Thread nD τ).loc main_arg1) := rfl

/-- The row-sum column at the second region's entry is what the first region left in it. -/
theorem V3_v0_0 (c : Dev nD) : V3 m ρ c main_v0_0 = (dat0 (V1 m ρ) c).arrAt 1 cfg0.N :=
  calc W3 m ρ c (Proc.devRef .tc main_v0_0)
    _ = W2 m ρ c (Proc.devRef .tc main_v0_0) := W3_of m ρ c main_v0_0 (by decide)
    _ = (dat0 (V1 m ρ) c).arrAt 1 cfg0.N := W2_arr m ρ c 1

/-- The column-sum row at the second region's entry is what the first region left in it. -/
theorem V3_v0_1 (c : Dev nD) : V3 m ρ c main_v0_1 = (dat0 (V1 m ρ) c).arrAt 2 cfg0.N :=
  calc W3 m ρ c (Proc.devRef .tc main_v0_1)
    _ = W2 m ρ c (Proc.devRef .tc main_v0_1) := W3_of m ρ c main_v0_1 (by decide)
    _ = (dat0 (V1 m ρ) c).arrAt 2 cfg0.N := W2_arr m ρ c 2

/-- b as the first region leaves it is b as launched. -/
theorem W2_arg2 (c : Dev nD) : W2 m ρ c (Proc.devRef .tc main_arg2) = m ((c : Thread nD τ).loc main_arg2) :=
  (W2_of_ne m ρ c main_arg2 (by decide)).trans rfl

/-- The reshaped row at the second region's entry: entry (0, j) is b(j). -/
theorem V3_v1_at (c : Dev nD) (u : Fin 1) (j : Fin 4096) :
    (V3 m ρ c main_v1 : S1x4096.Idx → EReal) (ix2 u j) = (m ((c : Thread nD τ).loc main_arg2) : S4096.Idx → EReal) (ix1 j) := by
  have e : (V3 m ρ c main_v1 : S1x4096.Idx → EReal)
      = shapeCast S1x4096 (W2 m ρ c (Proc.devRef .tc main_arg2) : S4096.Idx → EReal) shapeCasts_S4096_S1x4096 := by
    show StableHlo.after hostOps1 (W2 m ρ c) (Proc.devRef .tc main_v1) = _
    after_results
    rfl
  rw [e, W2_arg2]
  exact shapeCast_a_1a_apply _ _ u j

/-! ## The output array is G -/

/-- The second kernel's output array, after its region, is G of the arguments as launched. -/
theorem out_eq_G
    (hrow : ∀ (V : (c : Dev nD) → (b : Ref sig .tc) → Buf (Elt Ideal) ((c : Thread nD τ).loc b)) (c : Dev nD) (i : Fin 4096) (u : Fin 1),
      ((Cert.KernelIdeal.Frame.dat0 (F := Ideal) V c).arrAt 1 cfg0.N : S4096x1.Idx → EReal) (ValueIdx.ix2 i u) = Cert.Spec.rowSum (V c main_arg0) i)
    (hcol : ∀ (V : (c : Dev nD) → (b : Ref sig .tc) → Buf (Elt Ideal) ((c : Thread nD τ).loc b)) (c : Dev nD) (u : Fin 1) (k : Fin 4096),
      ((Cert.KernelIdeal.Frame.dat0 (F := Ideal) V c).arrAt 2 cfg0.N : S1x4096.Idx → EReal) (ValueIdx.ix2 u k) = Cert.Spec.colSum (V c main_arg0) k)
    (hout : ∀ (V : (c : Dev nD) → (b : Ref sig .tc) → Buf (Elt Ideal) ((c : Thread nD τ).loc b)) (c : Dev nD)
        (R : S4096x1.Idx → EReal) (C : S1x4096.Idx → EReal) (A W : S4096x4096.Idx → EReal) (B : S1x4096.Idx → EReal),
      V c main_v0_0 = R → V c main_v0_1 = C → V c main_arg0 = A → V c main_arg1 = W → V c main_v1 = B → ∀ (i j : Fin 4096),
      ((Cert.KernelIdeal.Frame.dat1 (F := Ideal) V c).arrAt 5 cfg1.N : S4096x4096.Idx → EReal) (ValueIdx.ix2 i j)
        = (∑ k : Fin 4096, (((R (ValueIdx.ix2 i 0) + C (ValueIdx.ix2 0 k)) - Cert.Spec.two * A (ValueIdx.ix2 i k)) * A (ValueIdx.ix2 i k)) * W (ValueIdx.ix2 k j)) + B (ValueIdx.ix2 0 j))
    (c : Dev nD) :
    (Cert.KernelIdeal.Frame.dat1 (F := Ideal) (Cert.KernelIdeal.Frame.V3 m ρ) c).arrAt 5 cfg1.N
      = Cert.Spec.G (m ((c.tc : Thread nD τ).loc main_arg0)) (m ((c.tc : Thread nD τ).loc main_arg1)) (m ((c.tc : Thread nD τ).loc main_arg2)) := by
  funext j
  obtain ⟨i, k, rfl⟩ : ∃ (i k : Fin 4096), j = ix2 i k := ⟨j 0, j 1, eq_ix2 j⟩
  have er : ∀ i' : Fin 4096, (V3 m ρ c main_v0_0 : S4096x1.Idx → EReal) (ix2 i' 0) = Cert.Spec.rowSum (m ((c.tc : Thread nD τ).loc main_arg0)) i' := fun i' => by
    rw [V3_v0_0]; exact hrow (V1 m ρ) c i' 0
  have ec : ∀ k' : Fin 4096, (V3 m ρ c main_v0_1 : S1x4096.Idx → EReal) (ix2 0 k') = Cert.Spec.colSum (m ((c.tc : Thread nD τ).loc main_arg0)) k' := fun k' => by
    rw [V3_v0_1]; exact hcol (V1 m ρ) c 0 k'
  refine (hout (V3 m ρ) c _ _ _ _ _ rfl rfl rfl rfl rfl i k).trans ?_
  rw [Cert.Spec.G_apply]
  refine congrArg₂ (· + ·) (Finset.sum_congr rfl fun k' _ => ?_) (V3_v1_at m ρ c 0 k)
  rw [er, ec, V3_arg0, V3_arg1]
  rfl

end Cert.KernelIdeal.Val

end
-- ==== Proof.lean ====
/-
  The claim: the kernel program (two Pallas regions with a reshape of b between them) and its idealization run to the
  end with their arguments unchanged, the reference likewise, and at the ideal instance the kernel's output array and
  the reference's result are one function of the arguments,
      out(i, j) = Σ_k ((rowsum_i + colsum_k − 2·A(i,k)) · A(i,k)) · W(k,j) + b(j).
  The kernel reaches it in two regions: the first leaves the row sums and, accumulated over eight row blocks, the
  column sums of A; the second accumulates the product over four blocks of the contracted axis in a scratch tile and
  adds the bias after the last. Both are regroupings of the same finite sums, which on the extended reals need only
  that addition is commutative and associative with zero as identity; the precondition is never opened.
  The idealization rewrote no operation, so what it preserves is trivially true.
-/
import proofs.«132442_j58583353917526_1_alg».proof.Defs
import proofs.«132442_j58583353917526_1_alg».proof.Proof.Gen.Kernel
import proofs.«132442_j58583353917526_1_alg».proof.Proof.Gen.KernelIdeal
import proofs.«132442_j58583353917526_1_alg».proof.Proof.Gen.ReferenceIdeal
import proofs.«132442_j58583353917526_1_alg».proof.Proof.Gen.Pre_finite_inputs
import proofs.«132442_j58583353917526_1_alg».proof.Proof.K.Run
import proofs.«132442_j58583353917526_1_alg».proof.Proof.KI.Run
import proofs.«132442_j58583353917526_1_alg».proof.Proof.Val.RefVal
import proofs.«132442_j58583353917526_1_alg».proof.Proof.Val.R0Val
import proofs.«132442_j58583353917526_1_alg».proof.Proof.Val.R1Val
import proofs.«132442_j58583353917526_1_alg».proof.Proof.Val.Bridge
import Idealize.ShloMosaic.Adequacy
import Idealize.ShloMosaic.Init

noncomputable section

namespace Cert.Proof

open Idealize.ShloMosaic Idealize.SL.Sem

/-- The program as printed runs to the end and leaves its arguments as launched. -/
theorem frame_p : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Frame.run_main (F := Bits) m ρ)

/-- So does its idealization. -/
theorem frame_pi : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Frame.run_main (F := Ideal) m ρ)

/-- And the reference. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.RefValue.ref_run m ρ)

theorem preserves : Cert.preserves_Kernel_KernelIdeal := trivial

/-- Both idealized programs end with the output at the one function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.Val.out_eq_G m ρ Cert.KernelIdeal.Val.row_arr Cert.KernelIdeal.Val.col_arr Cert.KernelIdeal.Val.out_arr c), (h c).2⟩)
      (Cert.KernelIdeal.Frame.run_main (F := Ideal) m ρ)
  · refine (θ_run (Cert.ReferenceIdeal.defs (F := Ideal)) _ _).mono (fun _ h c => ⟨(h c).1.trans ?_, (h c).2⟩)
      (Cert.ReferenceIdeal.RefValue.ref_run m' ρ')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
